-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 4294917296#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg6 : FVec F S3x64 .f32) (main_arg7 : FVec F S64x32 .f32) (main_arg8 : FVec F S32 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S2x800000 32) (main_arg2 : IVec S50000 32) (main_arg3 : FVec F S3x64x64 .f32) (main_arg4 : FVec F S3x64 .f32) (main_arg5 : FVec F S3x64x64 .f32) (main_arg6 : FVec F S3x64 .f32) (main_arg7 : FVec F S64x32 .f32) (main_arg8 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg1 main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S128x64 : Shape := ⟨2, ![128, 64]⟩
abbrev S50000x1 : Shape := ⟨2, ![50000, 1]⟩
abbrev S128x1 : Shape := ⟨2, ![128, 1]⟩
abbrev S1x32 : Shape := ⟨2, ![1, 32]⟩
abbrev S128x32 : Shape := ⟨2, ![128, 32]⟩

abbrev nBuf : Space → Nat
  | .hbm => 139
  | .vmem => 35
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x64x64, .f32⟩
  | 4 => ⟨S3x64, .f32⟩
  | 5 => ⟨S3x64x64, .f32⟩
  | 6 => ⟨S3x64, .f32⟩
  | 7 => ⟨S64x32, .f32⟩
  | 8 => ⟨S32, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S1, .i32⟩
  | 22 => ⟨S_, .i32⟩
  | 23 => ⟨S800000x1, .i32⟩
  | 24 => ⟨S800000x1, .i1⟩
  | 25 => ⟨S1x1, .i32⟩
  | 26 => ⟨S800000x1, .i32⟩
  | 27 => ⟨S800000x1, .i1⟩
  | 28 => ⟨S800000x1, .i1⟩
  | 29 => ⟨S_, .i1⟩
  | 30 => ⟨S800000, .i1⟩
  | 31 => ⟨S800000x64, .f32⟩
  | 32 => ⟨S800000x64, .i1⟩
  | 33 => ⟨S_, .f32⟩
  | 34 => ⟨S800000x64, .f32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S1x64x64, .f32⟩
  | 41 => ⟨S64x64, .f32⟩
  | 42 => ⟨S1x64, .f32⟩
  | 43 => ⟨S64, .f32⟩
  | 44 => ⟨S1x64x64, .f32⟩
  | 45 => ⟨S64x64, .f32⟩
  | 46 => ⟨S1x64, .f32⟩
  | 47 => ⟨S64, .f32⟩
  | 48 => ⟨S1x64, .f32⟩
  | 49 => ⟨S1x64, .f32⟩
  | 50 => ⟨S50000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x64, .f32⟩
  | 70 => ⟨S800000x64, .i1⟩
  | 71 => ⟨S_, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S1x64x64, .f32⟩
  | 79 => ⟨S64x64, .f32⟩
  | 80 => ⟨S1x64, .f32⟩
  | 81 => ⟨S64, .f32⟩
  | 82 => ⟨S1x64x64, .f32⟩
  | 83 => ⟨S64x64, .f32⟩
  | 84 => ⟨S1x64, .f32⟩
  | 85 => ⟨S64, .f32⟩
  | 86 => ⟨S1x64, .f32⟩
  | 87 => ⟨S1x64, .f32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S1, .i32⟩
  | 98 => ⟨S_, .i32⟩
  | 99 => ⟨S800000x1, .i32⟩
  | 100 => ⟨S800000x1, .i1⟩
  | 101 => ⟨S1x1, .i32⟩
  | 102 => ⟨S800000x1, .i32⟩
  | 103 => ⟨S800000x1, .i1⟩
  | 104 => ⟨S800000x1, .i1⟩
  | 105 => ⟨S_, .i1⟩
  | 106 => ⟨S800000, .i1⟩
  | 107 => ⟨S800000x64, .f32⟩
  | 108 => ⟨S800000x64, .i1⟩
  | 109 => ⟨S_, .f32⟩
  | 110 => ⟨S800000x64, .f32⟩
  | 111 => ⟨S800000x64, .f32⟩
  | 112 => ⟨S_, .f32⟩
  | 113 => ⟨S50000x64, .f32⟩
  | 114 => ⟨S800000x1, .i32⟩
  | 115 => ⟨S50000x64, .f32⟩
  | 116 => ⟨S1x64x64, .f32⟩
  | 117 => ⟨S64x64, .f32⟩
  | 118 => ⟨S1x64, .f32⟩
  | 119 => ⟨S64, .f32⟩
  | 120 => ⟨S1x64x64, .f32⟩
  | 121 => ⟨S64x64, .f32⟩
  | 122 => ⟨S1x64, .f32⟩
  | 123 => ⟨S64, .f32⟩
  | 124 => ⟨S1x64, .f32⟩
  | 125 => ⟨S1x64, .f32⟩
  | 126 => ⟨S50000x64, .f32⟩
  | 127 => ⟨S_, .f32⟩
  | _ => ⟨S50000x64, .f32⟩

abbrev hbmTy0_1 (i : Nat) : BufTy := match i % 128 with
  | 0 => ⟨S128x64, .f32⟩
  | 1 => ⟨S50000x1, .i32⟩
  | 2 => ⟨S128x64, .f32⟩
  | 3 => ⟨S_, .f32⟩
  | 4 => ⟨S50000x1, .f32⟩
  | 5 => ⟨S_, .f32⟩
  | 6 => ⟨S128x1, .f32⟩
  | 7 => ⟨S50000x1, .i32⟩
  | 8 => ⟨S128x1, .f32⟩
  | 9 => ⟨S1x32, .f32⟩
  | 10 => ⟨S128x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S128x64, .f32⟩
  | .local _ .vmem, ⟨31, _⟩ => ⟨S128x1, .f32⟩
  | .local _ .vmem, ⟨32, _⟩ => ⟨S64x32, .f32⟩
  | .local _ .vmem, ⟨33, _⟩ => ⟨S1x32, .f32⟩
  | .local _ .vmem, ⟨34, _⟩ => ⟨S128x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v19 : Ref sig .tc := ⟨.hbm, 73, rfl⟩
abbrev main_cst_0 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v34 : Ref sig .tc := ⟨.hbm, 111, rfl⟩
abbrev main_cst_1 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_cst_2 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_cst_3 : Ref sig .tc := ⟨.hbm, 131, rfl⟩
abbrev main_v52 : Ref sig .tc := ⟨.hbm, 132, rfl⟩
abbrev main_cst_4 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S128x1 : S_.BroadcastsInDim S128x1 (![] : Fin 0 → Fin S128x1.rank)
  shapeCasts_S32_S1x32 : S32.ShapeCasts S1x32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S128x64_S50000x1_S50000x64_1_0_0_1_wf : ScatterDims.WF S128x64 S50000x1 S50000x64 [1] [0] [0] 1
  scatter_S128x1_S50000x1_S50000x1_1_0_0_1_wf : ScatterDims.WF S128x1 S50000x1 S50000x1 [1] [0] [0] 1
  dot_S128x64_S64x32_S128x32_1_0_0_1_n_n_wf : DotDims.WF S128x64 S64x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x64.size a ≤ S128x64.size a
  hwx3_0 : ∀ i : grid3.Coords, EltTy.bits .f32 = 32 ∨ (Rect.block (s := S128x64) S128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x32.size a ≤ S128x32.size a
  hwx3_4 : ∀ i : grid3.Coords, EltTy.bits .f32 = 32 ∨ (Rect.block (s := S128x32) S128x32.size (cc3_transform_4 i) (hinb3_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

abbrev win0_0 : Pipeline.Window sig grid0 :=
  Pipeline.Window.ofSpec (Memref.whole main_v7) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v51) S128x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S128x32.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128x64 : Shape := ⟨2, ![128, 64]⟩
abbrev S50000x1 : Shape := ⟨2, ![50000, 1]⟩
abbrev S128x1 : Shape := ⟨2, ![128, 1]⟩
abbrev S128x32 : Shape := ⟨2, ![128, 32]⟩
abbrev S1x32 : Shape := ⟨2, ![1, 32]⟩

abbrev nBuf : Space → Nat
  | .hbm => 140
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S3x64x64, .f32⟩
  | 4 => ⟨S3x64, .f32⟩
  | 5 => ⟨S3x64x64, .f32⟩
  | 6 => ⟨S3x64, .f32⟩
  | 7 => ⟨S64x32, .f32⟩
  | 8 => ⟨S32, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S_, .f32⟩
  | 23 => ⟨S50000x64, .f32⟩
  | 24 => ⟨S800000x1, .i32⟩
  | 25 => ⟨S50000x64, .f32⟩
  | 26 => ⟨S50000x64, .f32⟩
  | 27 => ⟨S1x64x64, .f32⟩
  | 28 => ⟨S64x64, .f32⟩
  | 29 => ⟨S50000x64, .f32⟩
  | 30 => ⟨S1x64, .f32⟩
  | 31 => ⟨S64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S1x64x64, .f32⟩
  | 39 => ⟨S64x64, .f32⟩
  | 40 => ⟨S50000x64, .f32⟩
  | 41 => ⟨S1x64, .f32⟩
  | 42 => ⟨S64, .f32⟩
  | 43 => ⟨S1x64, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S_, .f32⟩
  | 59 => ⟨S50000x64, .f32⟩
  | 60 => ⟨S800000x1, .i32⟩
  | 61 => ⟨S50000x64, .f32⟩
  | 62 => ⟨S50000x64, .f32⟩
  | 63 => ⟨S1x64x64, .f32⟩
  | 64 => ⟨S64x64, .f32⟩
  | 65 => ⟨S50000x64, .f32⟩
  | 66 => ⟨S1x64, .f32⟩
  | 67 => ⟨S64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S1x64x64, .f32⟩
  | 75 => ⟨S64x64, .f32⟩
  | 76 => ⟨S50000x64, .f32⟩
  | 77 => ⟨S1x64, .f32⟩
  | 78 => ⟨S64, .f32⟩
  | 79 => ⟨S1x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S_, .f32⟩
  | 95 => ⟨S50000x64, .f32⟩
  | 96 => ⟨S800000x1, .i32⟩
  | 97 => ⟨S50000x64, .f32⟩
  | 98 => ⟨S50000x64, .f32⟩
  | 99 => ⟨S1x64x64, .f32⟩
  | 100 => ⟨S64x64, .f32⟩
  | 101 => ⟨S50000x64, .f32⟩
  | 102 => ⟨S1x64, .f32⟩
  | 103 => ⟨S64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S1x64x64, .f32⟩
  | 111 => ⟨S64x64, .f32⟩
  | 112 => ⟨S50000x64, .f32⟩
  | 113 => ⟨S1x64, .f32⟩
  | 114 => ⟨S64, .f32⟩
  | 115 => ⟨S1x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S_, .f32⟩
  | 122 => ⟨S128x64, .f32⟩
  | 123 => ⟨S50000x1, .i32⟩
  | 124 => ⟨S128x64, .f32⟩
  | 125 => ⟨S_, .f32⟩
  | 126 => ⟨S50000x1, .f32⟩
  | 127 => ⟨S_, .f32⟩
  | _ => ⟨S50000x64, .f32⟩

abbrev hbmTy0_1 (i : Nat) : BufTy := match i % 128 with
  | 0 => ⟨S128x1, .f32⟩
  | 1 => ⟨S50000x1, .i32⟩
  | 2 => ⟨S128x1, .f32⟩
  | 3 => ⟨S_, .f32⟩
  | 4 => ⟨S128x1, .f32⟩
  | 5 => ⟨S128x1, .f32⟩
  | 6 => ⟨S128x64, .f32⟩
  | 7 => ⟨S128x64, .f32⟩
  | 8 => ⟨S128x32, .f32⟩
  | 9 => ⟨S1x32, .f32⟩
  | 10 => ⟨S128x32, .f32⟩
  | 11 => ⟨S128x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_cst : Ref sig .tc := ⟨.hbm, 46, rfl⟩
abbrev main_call1_v0 : Ref sig .tc := ⟨.hbm, 47, rfl⟩
abbrev main_v32 : Ref sig .tc := ⟨.hbm, 48, rfl⟩
abbrev main_c_1 : Ref sig .tc := ⟨.hbm, 49, rfl⟩
abbrev main_v33 : Ref sig .tc := ⟨.hbm, 50, rfl⟩
abbrev main_v34 : Ref sig .tc := ⟨.hbm, 51, rfl⟩
abbrev main_c_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call2_cst : Ref sig .tc := ⟨.hbm, 71, rfl⟩
abbrev main_call2_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call3_cst : Ref sig .tc := ⟨.hbm, 82, rfl⟩
abbrev main_call3_v0 : Ref sig .tc := ⟨.hbm, 83, rfl⟩
abbrev main_v61 : Ref sig .tc := ⟨.hbm, 84, rfl⟩
abbrev main_c_4 : Ref sig .tc := ⟨.hbm, 85, rfl⟩
abbrev main_v62 : Ref sig .tc := ⟨.hbm, 86, rfl⟩
abbrev main_v63 : Ref sig .tc := ⟨.hbm, 87, rfl⟩
abbrev main_c_5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call4_cst : Ref sig .tc := ⟨.hbm, 107, rfl⟩
abbrev main_call4_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call5_cst : Ref sig .tc := ⟨.hbm, 118, rfl⟩
abbrev main_call5_v0 : Ref sig .tc := ⟨.hbm, 119, rfl⟩
abbrev main_v90 : Ref sig .tc := ⟨.hbm, 120, rfl⟩
abbrev main_cst_7 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_8 : Ref sig .tc := ⟨.hbm, 125, rfl⟩
abbrev main_v94 : Ref sig .tc := ⟨.hbm, 126, rfl⟩
abbrev main_cst_9 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_10 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S128x1 : S_.BroadcastsInDim S128x1 (![] : Fin 0 → Fin S128x1.rank)
  bcast_S128x1_S128x64_0_1 : S128x1.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S128x64_S50000x1_S50000x64_1_0_0_1_wf : ScatterDims.WF S128x64 S50000x1 S50000x64 [1] [0] [0] 1
  scatter_S128x1_S50000x1_S50000x1_1_0_0_1_wf : ScatterDims.WF S128x1 S50000x1 S50000x1 [1] [0] [0] 1
  dot_S128x64_S64x32_S128x32_1_0_0_1_n_n_wf : DotDims.WF S128x64 S64x32 S128x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

class Facts : Prop extends Facts₀ where

variable [Facts]
-- ==== Proof.TakeInRange.lean ====
/-
  Row lookups whose indices are in range.

  The kernel's program looks node rows up with a fill: an index below zero is first moved up by 50000, a row whose
  moved index is then outside `0 … 49999` is replaced by a fill word, and the other rows are gathered. The reference
  moves the index the same way and gathers with no fill. When every source index lies in `-50000 … 49999` (the
  indices that address one of the 50000 rows, counted from either end) the moved index is in `0 … 49999`, no row is
  filled, and the two lookups are the same gather.
-/
import proofs.«413928_j6339371728976_1_alg».proof.Defs
import proofs.«413928_j6339371728976_1_alg».proof.Proof.Gen.KernelIdeal
import proofs.«413928_j6339371728976_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.Gin

open Cert.KernelIdeal Cert.KernelIdeal.Gen Idealize.ShloMosaic Idealize.ShloMosaic.TcCoe Idealize.ShloMosaic.ValueIdx Idealize.SL.Sem

/-- Row 0 of the 2 × 800000 edge table: every edge's source node. -/
def srcOf (ei : IVec S2x800000 32) : IVec S800000 32 :=
  shapeCast S800000 (extractStridedSlice S1x800000 ![0, 0] ei slices_S2x800000_S1x800000_0_0) shapeCasts_S1x800000_S800000

/-- An index counted from the end is moved into `0 … 49999`; the result is laid out as a column of start indices. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The plain row lookup: row `e` of the result is the operand's row at the moved index of edge `e`. -/
def gatherRows (x : FVec Ideal S50000x64 .f32) (s : IVec S800000 32) : FVec Ideal S800000x64 .f32 :=
  Host.gather gather_S50000x64_S800000x1_S800000x64_1_0_n_n_0_1_164 x (wrapIdx s)

/-- The row lookup with a fill: a row whose moved index is outside `0 … 49999` is the fill word. -/
def takeFill (x : FVec Ideal S50000x64 .f32) (s : IVec S800000 32) : FVec Ideal S800000x64 .f32 :=
  select
    (broadcastInDim S800000x64 ![0] bcast_S800000_S800000x64_0
      (Host.reduce IntOp.andi
        (andi (cmpi .sge (wrapIdx s) (broadcastInDim S800000x1 ![] bcast_S_S800000x1 (constantI S_ 32 0#32)))
          (cmpi .sle (wrapIdx s)
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (gatherRows x s)
    (broadcastInDim S800000x64 ![] bcast_S_S800000x64 (constant S_ .f32 0x7FC00000#32))

/-- Every source index addresses one of the 50000 rows, counted from either end. -/
def InRange (s : IVec S800000 32) : Prop :=
  ∀ e : S800000.Idx, (-50000 : Int) ≤ (s e).toInt ∧ (s e).toInt < 50000

/-- A one-bit fold by "and" from 1 over entries that are all 1 is 1. -/
private theorem foldl_andi_ones {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a List.mem_cons_self
    have h1 : IntOp.andi 1#1 (f a) = 1#1 := by rw [ha]; rfl
    rw [List.foldl_cons, h1]
    exact foldl_andi_ones f l (fun n hn => h n (List.mem_cons_of_mem _ hn))

/-- A word in `-50000 … 49999`, moved up by 50000 when negative, lies in `0 … 49999`: both range tests pass. -/
private theorem wrap_tests_one (a : BitVec 32) (h1 : (-50000 : Int) ≤ a.toInt) (h2 : a.toInt < 50000) :
    IntOp.andi
      (IntOp.cmpi .sge (Scalar.select (IntOp.cmpi .slt a 0#32) (IntOp.addi a 50000#32) a) 0#32)
      (IntOp.cmpi .sle (Scalar.select (IntOp.cmpi .slt a 0#32) (IntOp.addi a 50000#32) a) 49999#32) = 1#1 := by
  have h0 : (0#32 : BitVec 32).toInt = 0 := by decide
  have h49 : (49999#32 : BitVec 32).toInt = 49999 := by decide
  have h50 : (50000#32 : BitVec 32).toInt = 50000 := by decide
  rw [IntOp.andi_eq_one, IntOp.cmpi_sge, IntOp.cmpi_sle, h0, h49]
  by_cases hc : IntOp.cmpi .slt a 0#32 = 1#1
  · have hneg : a.toInt < 0 := by have := IntOp.cmpi_slt.1 hc; rwa [h0] at this
    have hw : (IntOp.addi a 50000#32).toInt = a.toInt + 50000 := by
      show (a + 50000#32).toInt = _
      rw [BitVec.toInt_add, h50]
      exact Int.bmod_eq_of_le (by omega) (by omega)
    rw [hc, select_one, hw]; omega
  · have hnn : ¬ a.toInt < 0 := fun h => hc (IntOp.cmpi_slt.2 (by rwa [h0]))
    rw [eq_zero_of_ne_one hc, select_zero]; omega

/-- A broadcast of an array that is `c` everywhere is `c` everywhere. -/
private theorem bcast_const {α : Type} {s t : Shape} (dims : Fin s.rank → Fin t.rank) (h : s.BroadcastsInDim t dims)
    (x : s.Idx → α) (c : α) (hx : ∀ i, x i = c) (j : t.Idx) : broadcastInDim t dims h x j = c := hx _

/-- With every source index in range, the fill mask is 1 at every edge. -/
private theorem mask_one (s : IVec S800000 32) (hs : InRange s) (j : S800000.Idx) :
    Host.reduce IntOp.andi
        (andi (cmpi .sge (wrapIdx s) (broadcastInDim S800000x1 ![] bcast_S_S800000x1 (constantI S_ 32 0#32)))
          (cmpi .sle (wrapIdx s)
            (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_ j = 1#1 := by
  rw [Host.reduce_eq_foldl]
  refine foldl_andi_ones _ _ ?_
  intro i _
  exact wrap_tests_one _ (hs _).1 (hs _).2

/-- In range, no row is filled. -/
theorem takeFill_eq_gatherRows (x : FVec Ideal S50000x64 .f32) (s : IVec S800000 32) (hs : InRange s) :
    takeFill x s = gatherRows x s := by
  funext i
  unfold takeFill
  rw [select_apply, bcast_const _ _ _ 1#1 (mask_one s hs) i, select_one]

/-- Both signed tests on a word say that it lies in `-50000 … 49999`. -/
private theorem range_of_tests (a : BitVec 32)
    (h : IntOp.andi (IntOp.cmpi .sge a 4294917296#32) (IntOp.cmpi .slt a 50000#32) = 1#1) :
    (-50000 : Int) ≤ a.toInt ∧ a.toInt < 50000 := by
  have hm : (4294917296#32 : BitVec 32).toInt = -50000 := by decide
  have h50 : (50000#32 : BitVec 32).toInt = 50000 := by decide
  obtain ⟨ha, hb⟩ := IntOp.andi_eq_one.1 h
  have ha' := IntOp.cmpi_sge.1 ha
  have hb' := IntOp.cmpi_slt.1 hb
  rw [hm] at ha'
  rw [h50] at hb'
  exact ⟨ha', hb'⟩

/-- If the "all" of the two range tests over an index array is 1, the array is in range. -/
private theorem inRange_of_all (s : IVec S800000 32) (hb : S_.BroadcastsInDim S800000 (![] : Fin 0 → Fin S800000.rank))
    (hr : S800000.ReducesTo [0] S_) (h0 : 0 < S_.numel)
    (h : Host.reduce IntOp.andi
          (andi (cmpi .sge s (broadcastInDim S800000 ![] hb (constantI S_ 32 4294917296#32)))
            (cmpi .slt s (broadcastInDim S800000 ![] hb (constantI S_ 32 50000#32))))
          (constantI S_ 1 1#1) hr h0 ix0 = 1#1) : InRange s := by
  intro e
  haveI : Subsingleton S_.Idx := ⟨fun a b => funext fun d => d.elim0⟩
  have he := Host.reduce_andi_all _ _ hr h0 ix0 h e
  exact range_of_tests (s e) he

/-- The precondition's last conjunct says the source indices are in range. -/
theorem src_inRange (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    InRange (srcOf (m ((c.tc : Thread Cert.KernelIdeal.nD Cert.KernelIdeal.τ).loc Cert.KernelIdeal.main_arg1))) := by
  have h := congrFun (hpre c) ValueIdx.ix0
  dsimp only [Cert.Pre_finite_inputs.fn, Cert.Pre_finite_inputs.fn_part1, Cert.Pre_finite_inputs.fn_part2] at h
  have h2 := (IntOp.andi_eq_one.1 h).2
  exact inRange_of_all _ _ _ _ h2

end Cert.Gin

end
-- ==== Proof.Spec.lean ====
/-
  The network both programs compute, as plain functions over the extended reals.

  A graph of 50000 nodes with 64 features each is passed through three layers. In each layer a node's new feature
  row is a two-stage perceptron of `z = agg + h`, where `h` is the node's current row and `agg` the sum of the
  current rows of its in-neighbours: `relu (relu (z · W₁ + b₁) · W₂ + b₂)`. The node rows are then summed per graph
  (128 graphs), divided by the larger of the graph's node count and one, and sent through one more linear map to 32
  outputs. This file states one node's perceptron (`mlpRow`), the pooled readout of one graph (`poolRow`), and the two
  as functions of whole arrays (`mlpLayer`, `poolOut`), each read at an entry by `rfl`.

  The zero of the two `relu`s and the one of the count's floor are kept as the words the programs print: both
  programs carry the same words, so their values are never needed.
-/
import Idealize.ShloMosaic.PureOps.Ideal
import Idealize.ShloMosaic.Lib.ValueIdx

noncomputable section

open scoped BigOperators

namespace Cert.Gin

open Idealize.ShloMosaic Idealize.ShloMosaic.ValueIdx

/-- The word of `0.0`, at the extended reals. -/
abbrev zeroE : EReal := Ideal.ofBits .f32 0x00000000#32
/-- The word of `1.0`, at the extended reals. -/
abbrev oneE : EReal := Ideal.ofBits .f32 0x3F800000#32

/-- One node's perceptron at output feature `o`: `z` is the node's input row, `w1`, `b1` the first stage, `w2`, `b2`
    the second; each stage is followed by a maximum with zero. -/
def mlpRow (z : Fin 64 → EReal) (w1 : Fin 64 → Fin 64 → EReal) (b1 : Fin 64 → EReal)
    (w2 : Fin 64 → Fin 64 → EReal) (b2 : Fin 64 → EReal) (o : Fin 64) : EReal :=
  max ((∑ k : Fin 64, max ((∑ j : Fin 64, z j * w1 j k) + b1 k) zeroE * w2 k o) + b2 o) zeroE

/-- One graph's readout at output `o`: `s` is the graph's summed feature row, `cnt` its node count, `w`, `b` the
    final linear map. -/
def poolRow (s : Fin 64 → EReal) (cnt : EReal) (w : Fin 64 → Fin 32 → EReal) (b : Fin 32 → EReal) (o : Fin 32) : EReal :=
  (∑ k : Fin 64, Ideal.div (s k) (max cnt oneE) * w k o) + b o

/-- A whole layer: every node's perceptron of `agg + h`. The biases are given as `1 × 64` rows. -/
def mlpLayer (agg h : (⟨2, ![50000, 64]⟩ : Shape).Idx → EReal) (w1 : (⟨2, ![64, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) : (⟨2, ![50000, 64]⟩ : Shape).Idx → EReal :=
  fun i => mlpRow (fun j => agg (ix2 (idxEquiv2 i).1 j) + h (ix2 (idxEquiv2 i).1 j)) (fun j k => w1 (ix2 j k))
    (fun k => b1 (ix2 (0 : Fin 1) k)) (fun k o => w2 (ix2 k o)) (fun o => b2 (ix2 (0 : Fin 1) o)) (idxEquiv2 i).2

theorem mlpLayer_apply (agg h : (⟨2, ![50000, 64]⟩ : Shape).Idx → EReal) (w1 : (⟨2, ![64, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) (n : Fin 50000) (o : Fin 64) :
    mlpLayer agg h w1 b1 w2 b2 (ix2 n o) =
      mlpRow (fun j => agg (ix2 n j) + h (ix2 n j)) (fun j k => w1 (ix2 j k)) (fun k => b1 (ix2 (0 : Fin 1) k))
        (fun k o => w2 (ix2 k o)) (fun o => b2 (ix2 (0 : Fin 1) o)) o := rfl

/-- The readout of all 128 graphs: `sums` the per-graph feature sums, `cnts` the per-graph node counts as a column,
    `w` the final map, `b` its bias as a `1 × 32` row. -/
def poolOut (sums : (⟨2, ![128, 64]⟩ : Shape).Idx → EReal) (cnts : (⟨2, ![128, 1]⟩ : Shape).Idx → EReal)
    (w : (⟨2, ![64, 32]⟩ : Shape).Idx → EReal) (b : (⟨2, ![1, 32]⟩ : Shape).Idx → EReal) :
    (⟨2, ![128, 32]⟩ : Shape).Idx → EReal :=
  fun i => poolRow (fun k => sums (ix2 (idxEquiv2 i).1 k)) (cnts (ix2 (idxEquiv2 i).1 (0 : Fin 1))) (fun k o => w (ix2 k o))
    (fun o => b (ix2 (0 : Fin 1) o)) (idxEquiv2 i).2

theorem poolOut_apply (sums : (⟨2, ![128, 64]⟩ : Shape).Idx → EReal) (cnts : (⟨2, ![128, 1]⟩ : Shape).Idx → EReal)
    (w : (⟨2, ![64, 32]⟩ : Shape).Idx → EReal) (b : (⟨2, ![1, 32]⟩ : Shape).Idx → EReal) (g : Fin 128) (o : Fin 32) :
    poolOut sums cnts w b (ix2 g o) =
      poolRow (fun k => sums (ix2 g k)) (cnts (ix2 g (0 : Fin 1))) (fun k o => w (ix2 k o)) (fun o => b (ix2 (0 : Fin 1) o)) o := rfl

end Cert.Gin

end
-- ==== Proof.KernelTerm.lean ====
/-
  What the kernel's program computes, as one function of its nine arguments.

  Outside its four kernel launches the program slices the stacked weights and biases, looks the source rows up with
  a fill (`takeFill`), sums them into their target rows (a scatter-add into zeros), and at the end sums the node rows
  and a column of ones per graph. Each launch is a whole-array function of the arrays it is given (`mlpLayer`,
  `poolOut`). Composed in program order they give `outK`.
-/
import proofs.«413928_j6339371728976_1_alg».proof.Proof.TakeInRange
import proofs.«413928_j6339371728976_1_alg».proof.Proof.Spec

noncomputable section

namespace Cert.Gin

open Cert.KernelIdeal Cert.KernelIdeal.Gen Idealize.ShloMosaic Idealize.ShloMosaic.TcCoe Idealize.ShloMosaic.ValueIdx Idealize.SL.Sem

/-- Row 1 of the 2 × 800000 edge table: every edge's target node. -/
def dstOf (ei : IVec S2x800000 32) : IVec S800000 32 :=
  shapeCast S800000 (extractStridedSlice S1x800000 ![1, 0] ei slices_S2x800000_S1x800000_1_0) shapeCasts_S1x800000_S800000

/-- A vector of target nodes as a column of scatter indices. -/
def colOf (d : IVec S800000 32) : IVec S800000x1 32 := broadcastInDim S800000x1 ![0] bcast_S800000_S800000x1_0 d

/-- The neighbour sums of looked-up rows `u`: edge `e` adds row `e` of `u` into the row of its target node. -/
def scatterNodes (d : IVec S800000 32) (u : FVec Ideal S800000x64 .f32) : FVec Ideal S50000x64 .f32 :=
  Host.scatterAdd scatter_S50000x64_S800000x1_S800000x64_1_0_0_1
    (broadcastInDim S50000x64 ![] bcast_S_S50000x64 (constant S_ .f32 0x00000000#32)) (colOf d) u

/-- The neighbour sums with the filled lookup: each edge adds its source row, as looked up, into its target row. -/
def aggFill (h : FVec Ideal S50000x64 .f32) (ei : IVec S2x800000 32) : FVec Ideal S50000x64 .f32 :=
  scatterNodes (dstOf ei) (takeFill h (srcOf ei))

/-- The neighbour sums with the plain lookup. -/
def aggPlain (h : FVec Ideal S50000x64 .f32) (ei : IVec S2x800000 32) : FVec Ideal S50000x64 .f32 :=
  scatterNodes (dstOf ei) (gatherRows h (srcOf ei))

/-- Layer 0's 64 × 64 matrix out of a stack of three. -/
def wK0 (W : FVec Ideal S3x64x64 .f32) : FVec Ideal S64x64 .f32 :=
  shapeCast S64x64 (extractStridedSlice S1x64x64 ![0, 0, 0] W slices_S3x64x64_S1x64x64_0_0_0) shapeCasts_S1x64x64_S64x64
/-- Layer 1's matrix. -/
def wK1 (W : FVec Ideal S3x64x64 .f32) : FVec Ideal S64x64 .f32 :=
  shapeCast S64x64 (extractStridedSlice S1x64x64 ![1, 0, 0] W slices_S3x64x64_S1x64x64_1_0_0) shapeCasts_S1x64x64_S64x64
/-- Layer 2's matrix. -/
def wK2 (W : FVec Ideal S3x64x64 .f32) : FVec Ideal S64x64 .f32 :=
  shapeCast S64x64 (extractStridedSlice S1x64x64 ![2, 0, 0] W slices_S3x64x64_S1x64x64_2_0_0) shapeCasts_S1x64x64_S64x64

/-- Layer 0's bias out of a stack of three, as a 64-vector. -/
def bV0 (b : FVec Ideal S3x64 .f32) : FVec Ideal S64 .f32 :=
  shapeCast S64 (extractStridedSlice S1x64 ![0, 0] b slices_S3x64_S1x64_0_0) shapeCasts_S1x64_S64
/-- Layer 1's bias. -/
def bV1 (b : FVec Ideal S3x64 .f32) : FVec Ideal S64 .f32 :=
  shapeCast S64 (extractStridedSlice S1x64 ![1, 0] b slices_S3x64_S1x64_1_0) shapeCasts_S1x64_S64
/-- Layer 2's bias. -/
def bV2 (b : FVec Ideal S3x64 .f32) : FVec Ideal S64 .f32 :=
  shapeCast S64 (extractStridedSlice S1x64 ![2, 0] b slices_S3x64_S1x64_2_0) shapeCasts_S1x64_S64

/-- A 64-vector as the 1 × 64 row the perceptron kernel is given. -/
def rowK (v : FVec Ideal S64 .f32) : FVec Ideal S1x64 .f32 := shapeCast S1x64 v shapeCasts_S64_S1x64

/-- The per-graph sums of the node rows: node `n` adds its row into row `batch n`. -/
def sumsK (batch : IVec S50000 32) (h : FVec Ideal S50000x64 .f32) : FVec Ideal S128x64 .f32 :=
  Host.scatterAdd scatter_S128x64_S50000x1_S50000x64_1_0_0_1
    (broadcastInDim S128x64 ![] bcast_S_S128x64 (constant S_ .f32 0x00000000#32))
    (broadcastInDim S50000x1 ![0] bcast_S50000_S50000x1_0 batch) h

/-- The per-graph node counts: node `n` adds one into entry `batch n`. -/
def cntsK (batch : IVec S50000 32) : FVec Ideal S128x1 .f32 :=
  Host.scatterAdd scatter_S128x1_S50000x1_S50000x1_1_0_0_1
    (broadcastInDim S128x1 ![] bcast_S_S128x1 (constant S_ .f32 0x00000000#32))
    (broadcastInDim S50000x1 ![0] bcast_S50000_S50000x1_0 batch)
    (broadcastInDim S50000x1 ![] bcast_S_S50000x1 (constant S_ .f32 0x3F800000#32))

/-- The node rows after layers 0, 1, 2, with the lookup `agg` (filled or plain) as a parameter. -/
def h1Of (agg : FVec Ideal S50000x64 .f32 → IVec S2x800000 32 → FVec Ideal S50000x64 .f32)
    (x0 : FVec Ideal S50000x64 .f32) (x1 : IVec S2x800000 32) (x3 : FVec Ideal S3x64x64 .f32) (x4 : FVec Ideal S3x64 .f32)
    (x5 : FVec Ideal S3x64x64 .f32) (x6 : FVec Ideal S3x64 .f32) : FVec Ideal S50000x64 .f32 :=
  mlpLayer (agg x0 x1) x0 (wK0 x3) (rowK (bV0 x4)) (wK0 x5) (rowK (bV0 x6))
def h2Of (agg : FVec Ideal S50000x64 .f32 → IVec S2x800000 32 → FVec Ideal S50000x64 .f32)
    (x0 : FVec Ideal S50000x64 .f32) (x1 : IVec S2x800000 32) (x3 : FVec Ideal S3x64x64 .f32) (x4 : FVec Ideal S3x64 .f32)
    (x5 : FVec Ideal S3x64x64 .f32) (x6 : FVec Ideal S3x64 .f32) : FVec Ideal S50000x64 .f32 :=
  mlpLayer (agg (h1Of agg x0 x1 x3 x4 x5 x6) x1) (h1Of agg x0 x1 x3 x4 x5 x6) (wK1 x3) (rowK (bV1 x4)) (wK1 x5) (rowK (bV1 x6))
def h3Of (agg : FVec Ideal S50000x64 .f32 → IVec S2x800000 32 → FVec Ideal S50000x64 .f32)
    (x0 : FVec Ideal S50000x64 .f32) (x1 : IVec S2x800000 32) (x3 : FVec Ideal S3x64x64 .f32) (x4 : FVec Ideal S3x64 .f32)
    (x5 : FVec Ideal S3x64x64 .f32) (x6 : FVec Ideal S3x64 .f32) : FVec Ideal S50000x64 .f32 :=
  mlpLayer (agg (h2Of agg x0 x1 x3 x4 x5 x6) x1) (h2Of agg x0 x1 x3 x4 x5 x6) (wK2 x3) (rowK (bV2 x4)) (wK2 x5) (rowK (bV2 x6))

/-- The program's result, with the lookup as a parameter. -/
def outOf (agg : FVec Ideal S50000x64 .f32 → IVec S2x800000 32 → FVec Ideal S50000x64 .f32)
    (x0 : FVec Ideal S50000x64 .f32) (x1 : IVec S2x800000 32) (x2 : IVec S50000 32) (x3 : FVec Ideal S3x64x64 .f32)
    (x4 : FVec Ideal S3x64 .f32) (x5 : FVec Ideal S3x64x64 .f32) (x6 : FVec Ideal S3x64 .f32) (x7 : FVec Ideal S64x32 .f32)
    (x8 : FVec Ideal S32 .f32) : FVec Ideal S128x32 .f32 :=
  poolOut (sumsK x2 (h3Of agg x0 x1 x3 x4 x5 x6)) (cntsK x2) x7 (shapeCast S1x32 x8 shapeCasts_S32_S1x32)

/-- With every source index in range the filled and the plain lookup give the same neighbour sums, whatever the rows. -/
theorem aggFill_eq_aggPlain (x1 : IVec S2x800000 32) (hs : InRange (srcOf x1)) (h : FVec Ideal S50000x64 .f32) :
    aggFill h x1 = aggPlain h x1 := by
  unfold aggFill aggPlain
  rw [takeFill_eq_gatherRows h (srcOf x1) hs]

end Cert.Gin

end
-- ==== Proof.KernelStretch.lean ====
/-
  The stretches of plain array operations between the kernel launches, one at a time.

  Each stretch is a short line of operations run from some buffer contents `Wp`. What a buffer holds after the line
  is the operation that wrote it applied to what its operands held; for the buffers of interest these are the
  slices, lookups and scattered sums named in KernelTerm.lean, read from `Wp` at the stretch's inputs.
-/
import proofs.«413928_j6339371728976_1_alg».proof.Proof.Gen.KernelIdeal.Launch
import proofs.«413928_j6339371728976_1_alg».proof.Proof.KernelTerm
import Idealize.ShloMosaic.Lib.StableHlo.Run

set_option maxRecDepth 16384

noncomputable section

namespace Cert.Gin.Stretch

open Cert.Gin Cert.KernelIdeal Cert.KernelIdeal.Gen
open Idealize.ShloMosaic Idealize.ShloMosaic.TcCoe Idealize.SL.Sem Idealize.ShloMosaic.StableHlo

variable (Wp : Valuation τ sig (Elt Ideal))

/-! ## The edge table's two rows -/

/-- The source nodes are row 0 of the edge table. -/
theorem src0 : StableHlo.after hostOps0 Wp (Proc.devRef .tc main_v1) = srcOf (Wp (Proc.devRef .tc main_arg1)) := by
  after_results
  rfl

/-- The target nodes are row 1 of the edge table. -/
theorem dst0 : StableHlo.after hostOps0 Wp (Proc.devRef .tc main_v3) = dstOf (Wp (Proc.devRef .tc main_arg1)) := by
  after_results
  rfl

/-! ## The three lookups -/

/-- Contents moved to a buffer's own type and back are the contents. -/
private theorem ofBuf_toBuf {T : BufTy} (x : TRef sig T) (v : T.Contents (Elt Ideal)) : x.ofBuf (x.toBuf v) = v := by
  obtain ⟨r, h, hd, hs⟩ := x
  subst h
  rfl

/-- At a buffer whose type is the value's, moving contents to or from the buffer's own type is the identity:
    the source indices, the three arrays of node rows that are looked up, and the three arrays of looked-up rows. -/
private theorem ofBuf_src (h1 h2 h3) (v : main_v1.ty.Contents (Elt Ideal)) :
    (TRef.of (T := ⟨S800000, .i32⟩) main_v1 h1 h2 h3).ofBuf v = v := rfl
private theorem ofBuf_rows0 (h1 h2 h3) (v : main_arg0.ty.Contents (Elt Ideal)) :
    (TRef.of (T := ⟨S50000x64, .f32⟩) main_arg0 h1 h2 h3).ofBuf v = v := rfl
private theorem ofBuf_rows1 (h1 h2 h3) (v : main_v18.ty.Contents (Elt Ideal)) :
    (TRef.of (T := ⟨S50000x64, .f32⟩) main_v18 h1 h2 h3).ofBuf v = v := rfl
private theorem ofBuf_rows2 (h1 h2 h3) (v : main_v33.ty.Contents (Elt Ideal)) :
    (TRef.of (T := ⟨S50000x64, .f32⟩) main_v33 h1 h2 h3).ofBuf v = v := rfl
private theorem toBuf_take0 (h1 h2 h3) (v : (⟨S800000x64, .f32⟩ : BufTy).Contents (Elt Ideal)) :
    (TRef.of (T := ⟨S800000x64, .f32⟩) main_v4 h1 h2 h3).toBuf v = v := rfl
private theorem toBuf_take1 (h1 h2 h3) (v : (⟨S800000x64, .f32⟩ : BufTy).Contents (Elt Ideal)) :
    (TRef.of (T := ⟨S800000x64, .f32⟩) main_v19 h1 h2 h3).toBuf v = v := rfl
private theorem toBuf_take2 (h1 h2 h3) (v : (⟨S800000x64, .f32⟩ : BufTy).Contents (Elt Ideal)) :
    (TRef.of (T := ⟨S800000x64, .f32⟩) main_v34 h1 h2 h3).toBuf v = v := rfl

set_option maxHeartbeats 4000000 in
set_option maxRecDepth 65536 in
/-- Layer 0 looks the argument rows up. -/
theorem take0 : StableHlo.after hostOps0_1 Wp (Proc.devRef .tc main_v4) = takeFill (Wp (Proc.devRef .tc main_arg0)) (Wp (Proc.devRef .tc main_v1)) := by
  after_results_simp
  simp only [ofBuf_toBuf, ofBuf_src, ofBuf_rows0, toBuf_take0]
  unfold takeFill gatherRows wrapIdx
  rfl

set_option maxHeartbeats 4000000 in
set_option maxRecDepth 65536 in
/-- Layer 1 looks layer 0's rows up. -/
theorem take1 : StableHlo.after hostOps1 Wp (Proc.devRef .tc main_v19) = takeFill (Wp (Proc.devRef .tc main_v18)) (Wp (Proc.devRef .tc main_v1)) := by
  after_results_simp
  simp only [ofBuf_toBuf, ofBuf_src, ofBuf_rows1, toBuf_take1]
  unfold takeFill gatherRows wrapIdx
  rfl

set_option maxHeartbeats 4000000 in
set_option maxRecDepth 65536 in
/-- Layer 2 looks layer 1's rows up. -/
theorem take2 : StableHlo.after hostOps2 Wp (Proc.devRef .tc main_v34) = takeFill (Wp (Proc.devRef .tc main_v33)) (Wp (Proc.devRef .tc main_v1)) := by
  after_results_simp
  simp only [ofBuf_toBuf, ofBuf_src, ofBuf_rows2, toBuf_take2]
  unfold takeFill gatherRows wrapIdx
  rfl

/-! ## The scattered sums and the layers' weights -/

/-- Layer 0's neighbour sums: the looked-up rows added into their target rows. -/
theorem agg0 : StableHlo.after hostOps0_2 Wp (Proc.devRef .tc main_v7) = scatterNodes (Wp (Proc.devRef .tc main_v3)) (Wp (Proc.devRef .tc main_v4)) := by
  after_results
  rfl

/-- Layer 0's first matrix. -/
theorem w1_0 : StableHlo.after hostOps0_2 Wp (Proc.devRef .tc main_v9) = wK0 (Wp (Proc.devRef .tc main_arg3)) := by
  after_results
  rfl

/-- Layer 0's first bias, as a row. -/
theorem b1_0 : StableHlo.after hostOps0_2 Wp (Proc.devRef .tc main_v16) = rowK (bV0 (Wp (Proc.devRef .tc main_arg4))) := by
  after_results
  rfl

/-- Layer 0's second matrix. -/
theorem w2_0 : StableHlo.after hostOps0_2 Wp (Proc.devRef .tc main_v13) = wK0 (Wp (Proc.devRef .tc main_arg5)) := by
  after_results
  rfl

/-- Layer 0's second bias, as a row. -/
theorem b2_0 : StableHlo.after hostOps0_2 Wp (Proc.devRef .tc main_v17) = rowK (bV0 (Wp (Proc.devRef .tc main_arg6))) := by
  after_results
  rfl

/-- Layer 1's neighbour sums: the looked-up rows added into their target rows. -/
theorem agg1 : StableHlo.after hostOps1_1 Wp (Proc.devRef .tc main_v22) = scatterNodes (Wp (Proc.devRef .tc main_v3)) (Wp (Proc.devRef .tc main_v19)) := by
  after_results
  rfl

/-- Layer 1's first matrix. -/
theorem w1_1 : StableHlo.after hostOps1_1 Wp (Proc.devRef .tc main_v24) = wK1 (Wp (Proc.devRef .tc main_arg3)) := by
  after_results
  rfl

/-- Layer 1's first bias, as a row. -/
theorem b1_1 : StableHlo.after hostOps1_1 Wp (Proc.devRef .tc main_v31) = rowK (bV1 (Wp (Proc.devRef .tc main_arg4))) := by
  after_results
  rfl

/-- Layer 1's second matrix. -/
theorem w2_1 : StableHlo.after hostOps1_1 Wp (Proc.devRef .tc main_v28) = wK1 (Wp (Proc.devRef .tc main_arg5)) := by
  after_results
  rfl

/-- Layer 1's second bias, as a row. -/
theorem b2_1 : StableHlo.after hostOps1_1 Wp (Proc.devRef .tc main_v32) = rowK (bV1 (Wp (Proc.devRef .tc main_arg6))) := by
  after_results
  rfl

/-- Layer 2's neighbour sums: the looked-up rows added into their target rows. -/
theorem agg2 : StableHlo.after hostOps2_1 Wp (Proc.devRef .tc main_v37) = scatterNodes (Wp (Proc.devRef .tc main_v3)) (Wp (Proc.devRef .tc main_v34)) := by
  after_results
  rfl

/-- Layer 2's first matrix. -/
theorem w1_2 : StableHlo.after hostOps2_1 Wp (Proc.devRef .tc main_v39) = wK2 (Wp (Proc.devRef .tc main_arg3)) := by
  after_results
  rfl

/-- Layer 2's first bias, as a row. -/
theorem b1_2 : StableHlo.after hostOps2_1 Wp (Proc.devRef .tc main_v46) = rowK (bV2 (Wp (Proc.devRef .tc main_arg4))) := by
  after_results
  rfl

/-- Layer 2's second matrix. -/
theorem w2_2 : StableHlo.after hostOps2_1 Wp (Proc.devRef .tc main_v43) = wK2 (Wp (Proc.devRef .tc main_arg5)) := by
  after_results
  rfl

/-- Layer 2's second bias, as a row. -/
theorem b2_2 : StableHlo.after hostOps2_1 Wp (Proc.devRef .tc main_v47) = rowK (bV2 (Wp (Proc.devRef .tc main_arg6))) := by
  after_results
  rfl

/-! ## The per-graph sums -/

/-- The node rows summed per graph. -/
theorem sums3 : StableHlo.after hostOps3 Wp (Proc.devRef .tc main_v51) = sumsK (Wp (Proc.devRef .tc main_arg2)) (Wp (Proc.devRef .tc main_v48)) := by
  after_results
  rfl

/-- The nodes counted per graph. -/
theorem cnts3 : StableHlo.after hostOps3 Wp (Proc.devRef .tc main_v55) = cntsK (Wp (Proc.devRef .tc main_arg2)) := by
  after_results
  rfl

/-- The final bias as a row. -/
theorem bias3 : StableHlo.after hostOps3 Wp (Proc.devRef .tc main_v56) = shapeCast S1x32 (Wp (Proc.devRef .tc main_arg8)) shapeCasts_S32_S1x32 := by
  after_results
  rfl

end Cert.Gin.Stretch

end
-- ==== Proof.KernelKeep.lean ====
/-
  What the stretches and the launches leave alone.

  A buffer that no operation of a line writes holds after the line what it held before; a kernel launch writes its
  own output array and nothing else. So the edge table's two rows, the arguments a later stage reads, and the current
  node rows are carried unchanged from where they are made to where they are read.
-/
import proofs.«413928_j6339371728976_1_alg».proof.Proof.Gen.KernelIdeal.Frame
import Idealize.ShloMosaic.Lib.StableHlo.Run
import Idealize.ShloMosaic.PureOps.Ideal

set_option maxRecDepth 16384

noncomputable section

namespace Cert.Gin.Keep

open Cert.KernelIdeal Cert.KernelIdeal.Gen
open Idealize.ShloMosaic Idealize.ShloMosaic.TcCoe Idealize.SL.Sem Idealize.ShloMosaic.StableHlo

/-- A buffer that no operation of a line writes holds after the line what it held before. -/
theorem kept (Wp : Valuation τ sig (Elt Ideal)) (ops : List (HloOp τ sig (Elt Ideal))) (b : Ref sig .tc)
    (h : ops.Forall fun op => Proc.devRef .tc b ∉ op.writes) :
    StableHlo.after ops Wp (Proc.devRef .tc b) = Wp (Proc.devRef .tc b) :=
  StableHlo.after_of_forall_not_mem (b := Proc.devRef .tc b) _ _ (List.forall_iff_forall_mem.mp h)

/-- Every operation of a stretch writes one buffer, and it is another one. -/
macro "not_written" : tactic =>
  `(tactic| ((simp only [hostOps0, hostOps0_1, hostOps0_2, hostOps1, hostOps1_1, hostOps2, hostOps2_1, hostOps3, List.Forall, StableHlo.nullary_writes, StableHlo.unary_writes, StableHlo.binary_writes, StableHlo.ternary_writes, StableHlo.quaternary_writes, StableHlo.reshape_writes, StableHlo.binaryIndexed_writes, Finset.mem_singleton]) ; (repeat' apply And.intro) ; (all_goals exact StableHlo.devRef_ne_of_ne (by decide))))

section Stretches

variable (Wp : Valuation τ sig (Elt Ideal))

/-- The first stretch only slices the edge table: every argument passes it. -/
theorem keep0 : ∀ b ∈ ([main_arg0, main_arg1, main_arg2, main_arg3, main_arg4, main_arg5, main_arg6, main_arg7, main_arg8] : List (Ref sig .tc)),
    StableHlo.after hostOps0 Wp (Proc.devRef .tc b) = Wp (Proc.devRef .tc b) := by
  intro b hb
  simp only [List.mem_cons, List.not_mem_nil, or_false] at hb
  rcases hb with rfl | rfl | rfl | rfl | rfl | rfl | rfl | rfl | rfl <;> exact kept Wp _ _ (by not_written)

/-- Layer 0's lookup writes its own temporaries and the looked-up rows. -/
theorem keep0_1 : ∀ b ∈ ([main_v1, main_v3, main_arg0, main_arg2, main_arg3, main_arg4, main_arg5, main_arg6, main_arg7, main_arg8] : List (Ref sig .tc)),
    StableHlo.after hostOps0_1 Wp (Proc.devRef .tc b) = Wp (Proc.devRef .tc b) := by
  intro b hb
  simp only [List.mem_cons, List.not_mem_nil, or_false] at hb
  rcases hb with rfl | rfl | rfl | rfl | rfl | rfl | rfl | rfl | rfl | rfl <;> exact kept Wp _ _ (by not_written)

/-- Layer 0's scattered sum and weight slices write their own results. -/
theorem keep0_2 : ∀ b ∈ ([main_v1, main_v3, main_arg0, main_arg2, main_arg3, main_arg4, main_arg5, main_arg6, main_arg7, main_arg8] : List (Ref sig .tc)),
    StableHlo.after hostOps0_2 Wp (Proc.devRef .tc b) = Wp (Proc.devRef .tc b) := by
  intro b hb
  simp only [List.mem_cons, List.not_mem_nil, or_false] at hb
  rcases hb with rfl | rfl | rfl | rfl | rfl | rfl | rfl | rfl | rfl | rfl <;> exact kept Wp _ _ (by not_written)

/-- Layer 1's lookup. -/
theorem keep1 : ∀ b ∈ ([main_v1, main_v3, main_v18, main_arg2, main_arg3, main_arg4, main_arg5, main_arg6, main_arg7, main_arg8] : List (Ref sig .tc)),
    StableHlo.after hostOps1 Wp (Proc.devRef .tc b) = Wp (Proc.devRef .tc b) := by
  intro b hb
  simp only [List.mem_cons, List.not_mem_nil, or_false] at hb
  rcases hb with rfl | rfl | rfl | rfl | rfl | rfl | rfl | rfl | rfl | rfl <;> exact kept Wp _ _ (by not_written)

/-- Layer 1's scattered sum and weight slices. -/
theorem keep1_1 : ∀ b ∈ ([main_v1, main_v3, main_v18, main_arg2, main_arg3, main_arg4, main_arg5, main_arg6, main_arg7, main_arg8] : List (Ref sig .tc)),
    StableHlo.after hostOps1_1 Wp (Proc.devRef .tc b) = Wp (Proc.devRef .tc b) := by
  intro b hb
  simp only [List.mem_cons, List.not_mem_nil, or_false] at hb
  rcases hb with rfl | rfl | rfl | rfl | rfl | rfl | rfl | rfl | rfl | rfl <;> exact kept Wp _ _ (by not_written)

/-- Layer 2's lookup. -/
theorem keep2 : ∀ b ∈ ([main_v1, main_v3, main_v33, main_arg2, main_arg3, main_arg4, main_arg5, main_arg6, main_arg7, main_arg8] : List (Ref sig .tc)),
    StableHlo.after hostOps2 Wp (Proc.devRef .tc b) = Wp (Proc.devRef .tc b) := by
  intro b hb
  simp only [List.mem_cons, List.not_mem_nil, or_false] at hb
  rcases hb with rfl | rfl | rfl | rfl | rfl | rfl | rfl | rfl | rfl | rfl <;> exact kept Wp _ _ (by not_written)

/-- Layer 2's scattered sum and weight slices. -/
theorem keep2_1 : ∀ b ∈ ([main_v1, main_v3, main_v33, main_arg2, main_arg3, main_arg4, main_arg5, main_arg6, main_arg7, main_arg8] : List (Ref sig .tc)),
    StableHlo.after hostOps2_1 Wp (Proc.devRef .tc b) = Wp (Proc.devRef .tc b) := by
  intro b hb
  simp only [List.mem_cons, List.not_mem_nil, or_false] at hb
  rcases hb with rfl | rfl | rfl | rfl | rfl | rfl | rfl | rfl | rfl | rfl <;> exact kept Wp _ _ (by not_written)

/-- The last stretch leaves the final matrix alone. -/
theorem keep3 : StableHlo.after hostOps3 Wp (Proc.devRef .tc main_arg7) = Wp (Proc.devRef .tc main_arg7) :=
  kept Wp _ _ (by not_written)

end Stretches

section Launches

variable (m : (ℓ : Loc nD τ sig) → Buf (Elt Ideal) ℓ) (ρ : Dev nD → PrngReg)

/-- Region 0 writes its own output array only: the edge rows and the later arguments pass it unchanged. -/
theorem exit0 (c : Dev nD) : ∀ b ∈ ([main_v1, main_v3, main_arg2, main_arg3, main_arg4, main_arg5, main_arg6, main_arg7, main_arg8] : List (Ref sig .tc)),
    W4 (F := Ideal) m ρ c (Proc.devRef .tc b) = W3 (F := Ideal) m ρ c (Proc.devRef .tc b) := by
  intro b hb
  simp only [List.mem_cons, List.not_mem_nil, or_false] at hb
  rcases hb with rfl | rfl | rfl | rfl | rfl | rfl | rfl | rfl | rfl <;> exact W4_of_ne m ρ c _ (by decide)

/-- Region 1 writes its own output array only: the edge rows and the later arguments pass it unchanged. -/
theorem exit1 (c : Dev nD) : ∀ b ∈ ([main_v1, main_v3, main_arg2, main_arg3, main_arg4, main_arg5, main_arg6, main_arg7, main_arg8] : List (Ref sig .tc)),
    W7 (F := Ideal) m ρ c (Proc.devRef .tc b) = W6 (F := Ideal) m ρ c (Proc.devRef .tc b) := by
  intro b hb
  simp only [List.mem_cons, List.not_mem_nil, or_false] at hb
  rcases hb with rfl | rfl | rfl | rfl | rfl | rfl | rfl | rfl | rfl <;> exact W7_of_ne m ρ c _ (by decide)

/-- Region 2 writes its own output array only: the edge rows and the later arguments pass it unchanged. -/
theorem exit2 (c : Dev nD) : ∀ b ∈ ([main_v1, main_v3, main_arg2, main_arg3, main_arg4, main_arg5, main_arg6, main_arg7, main_arg8] : List (Ref sig .tc)),
    W10 (F := Ideal) m ρ c (Proc.devRef .tc b) = W9 (F := Ideal) m ρ c (Proc.devRef .tc b) := by
  intro b hb
  simp only [List.mem_cons, List.not_mem_nil, or_false] at hb
  rcases hb with rfl | rfl | rfl | rfl | rfl | rfl | rfl | rfl | rfl <;> exact W10_of_ne m ρ c _ (by decide)

end Launches

end Cert.Gin.Keep

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.MlpBody.lean ====
/-
  What one run of a kernel body stores, read at an entry.

  The perceptron kernel's stored value at row `r`, column `o` of its 5000 × 64 block is `mlpRow` of the row
  `agg r + h r` and the two weight matrices and bias rows it loaded; the readout kernel's stored value at graph `g`,
  output `o` is `poolRow` of the graph's summed row and count.
-/
import proofs.«413928_j6339371728976_1_alg».proof.Proof.Gen.KernelIdeal.Skeleton
import proofs.«413928_j6339371728976_1_alg».proof.Proof.Spec
import proofs.«413928_j6339371728976_1_alg».proof.Proof.LibDot
import proofs.«413928_j6339371728976_1_alg».proof.Proof.LibKeepdims
import Idealize.ShloMosaic.Lib.Pipeline.Value
import Idealize.ShloMosaic.Lib.ValueLayout

noncomputable section

open scoped BigOperators

namespace Cert.Gin

open Cert.KernelIdeal Cert.KernelIdeal.Gen Idealize.ShloMosaic Idealize.ShloMosaic.ValueIdx

theorem pay0_apply (x0 x1 : Vec Ideal S5000x64 .f32) (x2 : Vec Ideal S64x64 .f32) (x3 : Vec Ideal S1x64 .f32)
    (x4 : Vec Ideal S64x64 .f32) (x5 : Vec Ideal S1x64 .f32) (r : Fin 5000) (o : Fin 64) :
    k0_pay1 (F := Ideal) x0 x1 x2 x3 x4 x5 (ix2 r o) =
      mlpRow (fun j => x0 (ix2 r j) + x1 (ix2 r j)) (fun j k => x2 (ix2 j k)) (fun k => x3 (ix2 (0 : Fin 1) k))
        (fun k o => x4 (ix2 k o)) (fun o => x5 (ix2 (0 : Fin 1) o)) o := by
  -- The stored value is a maximum with zero of a sum with the second bias row; the sum is the second matrix
  -- product, read at (r, o) as a sum over the 64 hidden features k, whose left factor at (r, k) is again a
  -- maximum with zero of the first matrix product at (r, k) plus the first bias row. The casts to the same
  -- shape are identities and each bias row, broadcast over the 5000 rows, is read at its one row.
  unfold k0_pay1
  simp only [shapeCast_self]
  rw [maximumf_apply, addf_apply, broadcast_apply,
    Cert.LibDot.matmul_zero_apply _ rfl rfl rfl rfl rfl rfl, broadcastTo_1b_ab_apply]
  unfold mlpRow
  refine congrArg (fun t => max (t + x5 (ix2 (0 : Fin 1) o)) zeroE) (Finset.sum_congr rfl fun k _ => ?_)
  refine congrArg (fun t => t * x4 (ix2 k o)) ?_
  rw [maximumf_apply, addf_apply, broadcast_apply,
    Cert.LibDot.matmul_zero_apply _ rfl rfl rfl rfl rfl rfl, broadcastTo_1b_ab_apply]
  rfl

theorem pay1_apply (x0 x1 : Vec Ideal S5000x64 .f32) (x2 : Vec Ideal S64x64 .f32) (x3 : Vec Ideal S1x64 .f32)
    (x4 : Vec Ideal S64x64 .f32) (x5 : Vec Ideal S1x64 .f32) (r : Fin 5000) (o : Fin 64) :
    k1_pay1 (F := Ideal) x0 x1 x2 x3 x4 x5 (ix2 r o) =
      mlpRow (fun j => x0 (ix2 r j) + x1 (ix2 r j)) (fun j k => x2 (ix2 j k)) (fun k => x3 (ix2 (0 : Fin 1) k))
        (fun k o => x4 (ix2 k o)) (fun o => x5 (ix2 (0 : Fin 1) o)) o := by
  -- The stored value is a maximum with zero of a sum with the second bias row; the sum is the second matrix
  -- product, read at (r, o) as a sum over the 64 hidden features k, whose left factor at (r, k) is again a
  -- maximum with zero of the first matrix product at (r, k) plus the first bias row. The casts to the same
  -- shape are identities and each bias row, broadcast over the 5000 rows, is read at its one row.
  unfold k1_pay1
  simp only [shapeCast_self]
  rw [maximumf_apply, addf_apply, broadcast_apply,
    Cert.LibDot.matmul_zero_apply _ rfl rfl rfl rfl rfl rfl, broadcastTo_1b_ab_apply]
  unfold mlpRow
  refine congrArg (fun t => max (t + x5 (ix2 (0 : Fin 1) o)) zeroE) (Finset.sum_congr rfl fun k _ => ?_)
  refine congrArg (fun t => t * x4 (ix2 k o)) ?_
  rw [maximumf_apply, addf_apply, broadcast_apply,
    Cert.LibDot.matmul_zero_apply _ rfl rfl rfl rfl rfl rfl, broadcastTo_1b_ab_apply]
  rfl

theorem pay2_apply (x0 x1 : Vec Ideal S5000x64 .f32) (x2 : Vec Ideal S64x64 .f32) (x3 : Vec Ideal S1x64 .f32)
    (x4 : Vec Ideal S64x64 .f32) (x5 : Vec Ideal S1x64 .f32) (r : Fin 5000) (o : Fin 64) :
    k2_pay1 (F := Ideal) x0 x1 x2 x3 x4 x5 (ix2 r o) =
      mlpRow (fun j => x0 (ix2 r j) + x1 (ix2 r j)) (fun j k => x2 (ix2 j k)) (fun k => x3 (ix2 (0 : Fin 1) k))
        (fun k o => x4 (ix2 k o)) (fun o => x5 (ix2 (0 : Fin 1) o)) o := by
  -- The stored value is a maximum with zero of a sum with the second bias row; the sum is the second matrix
  -- product, read at (r, o) as a sum over the 64 hidden features k, whose left factor at (r, k) is again a
  -- maximum with zero of the first matrix product at (r, k) plus the first bias row. The casts to the same
  -- shape are identities and each bias row, broadcast over the 5000 rows, is read at its one row.
  unfold k2_pay1
  simp only [shapeCast_self]
  rw [maximumf_apply, addf_apply, broadcast_apply,
    Cert.LibDot.matmul_zero_apply _ rfl rfl rfl rfl rfl rfl, broadcastTo_1b_ab_apply]
  unfold mlpRow
  refine congrArg (fun t => max (t + x5 (ix2 (0 : Fin 1) o)) zeroE) (Finset.sum_congr rfl fun k _ => ?_)
  refine congrArg (fun t => t * x4 (ix2 k o)) ?_
  rw [maximumf_apply, addf_apply, broadcast_apply,
    Cert.LibDot.matmul_zero_apply _ rfl rfl rfl rfl rfl rfl, broadcastTo_1b_ab_apply]
  rfl

theorem pay3_apply (x0 : Vec Ideal S128x64 .f32) (x1 : Vec Ideal S128x1 .f32) (x2 : Vec Ideal S64x32 .f32)
    (x3 : Vec Ideal S1x32 .f32) (g : Fin 128) (o : Fin 32) :
    k3_pay1 (F := Ideal) x0 x1 x2 x3 (ix2 g o) =
      poolRow (fun k => x0 (ix2 g k)) (x1 (ix2 g (0 : Fin 1))) (fun k o => x2 (ix2 k o)) (fun o => x3 (ix2 (0 : Fin 1) o)) o := by
  -- The stored value is the matrix product plus the bias row; the product, read at (g, o), is a sum over the
  -- 64 features k whose left factor at (g, k) is the summed row's entry divided by the count column, floored
  -- at one and broadcast over the 64 columns, read in row g.
  unfold k3_pay1
  simp only [shapeCast_self]
  rw [addf_apply, Cert.LibDot.matmul_zero_apply _ rfl rfl rfl rfl rfl rfl, broadcastTo_1b_ab_apply]
  unfold poolRow
  refine congrArg (fun t => t + x3 (ix2 (0 : Fin 1) o)) (Finset.sum_congr rfl fun k _ => ?_)
  refine congrArg (fun t => t * x2 (ix2 k o)) ?_
  rw [divf_apply, broadcastTo_a1_ab_apply, maximumf_apply, broadcast_apply]
  rfl

end Cert.Gin

end
-- ==== Proof.Region0.lean ====
/-
  The first layer's kernel region as a function of the arrays it finds: after its ten grid points the output array
  holds, at node `n` and feature `o`, the perceptron of row `n` of the two input arrays. Block `t` covers rows
  `5000 t … 5000 t + 4999`; the weight and bias windows are the whole small arrays at every point.
-/
import proofs.«413928_j6339371728976_1_alg».proof.Proof.Gen.KernelIdeal.Frame
import proofs.«413928_j6339371728976_1_alg».proof.Proof.MlpBody
import Idealize.ShloMosaic.Lib.Pipeline.Value
import Idealize.ShloMosaic.Lib.ValueIdx

set_option maxRecDepth 16384

noncomputable section

open scoped BigOperators

namespace Cert.Gin

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

private theorem zeroOff0 : (![0, 0] : Fin 2 → Nat) = fun _ => 0 := funext fun a => by fin_cases a <;> rfl

/-- The windows' index maps at each of the ten grid points: the three large windows sit at row block `t`,
    column block 0; the four small windows at block (0, 0). -/
private theorem idxFacts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ t.val < 10 :=
  (by decide +kernel : ∀ t : Fin grid0.N, _)

/-- Every row block is some point's. -/
private theorem idxOnto0 : ∀ q : Fin 10, ∃ t : Fin cfg0.N, t.val = q.val :=
  (by decide +kernel : ∀ q : Fin 10, ∃ t : Fin grid0.N, t.val = q.val)

/-- Row `r` of block `t` of the first large input is row `5000 t + r` of its array. -/
private theorem blk0_0_apply (c : Dev nD) (t : Fin cfg0.N) (r : Fin 5000) (j : Fin 64) (n : Fin 50000)
    (hn : n.val = 5000 * t.val + r.val) :
    (iblk0 (F := Ideal) V c 0 t : Vec Ideal S5000x64 .f32) (ix2 r j) = (V c main_v7 : S50000x64.Idx → EReal) (ix2 n j) := by
  obtain ⟨e0, e1, -⟩ := idxFacts0 t
  unfold iblk0
  rw [View.read_apply]
  show V c main_v7 _ = V c main_v7 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 64 + 1 * j.val = j.val; rw [e1]; omega

/-- The same for the second large input. -/
private theorem blk0_1_apply (c : Dev nD) (t : Fin cfg0.N) (r : Fin 5000) (j : Fin 64) (n : Fin 50000)
    (hn : n.val = 5000 * t.val + r.val) :
    (iblk0 (F := Ideal) V c 1 t : Vec Ideal S5000x64 .f32) (ix2 r j) = (V c main_arg0 : S50000x64.Idx → EReal) (ix2 n j) := by
  obtain ⟨-, -, e0, e1, -⟩ := idxFacts0 t
  unfold iblk0
  rw [View.read_apply]
  show V c main_arg0 _ = V c main_arg0 _
  congr 1
  funext a
  apply Fin.ext
  match a with
  | ⟨0, _⟩ => show win0_1.index t (0 : Fin 2) * 5000 + 1 * r.val = n.val; rw [e0, hn]; omega
  | ⟨1, _⟩ => show win0_1.index t (1 : Fin 2) * 64 + 1 * j.val = j.val; rw [e1]; omega

/-- The first weight window is its whole array at every point. -/
private theorem blk0_2_apply (c : Dev nD) (t : Fin cfg0.N) (j k : Fin 64) :
    (iblk0 (F := Ideal) V c 2 t : Vec Ideal S64x64 .f32) (ix2 j k) = (V c main_v9 : S64x64.Idx → EReal) (ix2 j k) := by
  obtain ⟨-, -, -, -, e0, e1, -⟩ := idxFacts0 t
  unfold iblk0
  rw [View.read_apply]
  show V c main_v9 _ = V c main_v9 _
  congr 1
  funext a
  apply Fin.ext
  match a with
  | ⟨0, _⟩ => show win0_2.index t (0 : Fin 2) * 64 + 1 * j.val = j.val; rw [e0]; omega
  | ⟨1, _⟩ => show win0_2.index t (1 : Fin 2) * 64 + 1 * k.val = k.val; rw [e1]; omega

/-- The first bias window is its whole row at every point. -/
private theorem blk0_3_apply (c : Dev nD) (t : Fin cfg0.N) (z : Fin 1) (k : Fin 64) :
    (iblk0 (F := Ideal) V c 3 t : Vec Ideal S1x64 .f32) (ix2 z k) = (V c main_v16 : S1x64.Idx → EReal) (ix2 z k) := by
  obtain ⟨-, -, -, -, -, -, e0, e1, -⟩ := idxFacts0 t
  unfold iblk0
  rw [View.read_apply]
  show V c main_v16 _ = V c main_v16 _
  congr 1
  funext a
  apply Fin.ext
  match a with
  | ⟨0, _⟩ => show win0_3.index t (0 : Fin 2) * 1 + 1 * z.val = z.val; rw [e0]; omega
  | ⟨1, _⟩ => show win0_3.index t (1 : Fin 2) * 64 + 1 * k.val = k.val; rw [e1]; omega

/-- The second weight window is its whole array at every point. -/
private theorem blk0_4_apply (c : Dev nD) (t : Fin cfg0.N) (j k : Fin 64) :
    (iblk0 (F := Ideal) V c 4 t : Vec Ideal S64x64 .f32) (ix2 j k) = (V c main_v13 : S64x64.Idx → EReal) (ix2 j k) := by
  obtain ⟨-, -, -, -, -, -, -, -, e0, e1, -⟩ := idxFacts0 t
  unfold iblk0
  rw [View.read_apply]
  show V c main_v13 _ = V c main_v13 _
  congr 1
  funext a
  apply Fin.ext
  match a with
  | ⟨0, _⟩ => show win0_4.index t (0 : Fin 2) * 64 + 1 * j.val = j.val; rw [e0]; omega
  | ⟨1, _⟩ => show win0_4.index t (1 : Fin 2) * 64 + 1 * k.val = k.val; rw [e1]; omega

/-- The second bias window is its whole row at every point. -/
private theorem blk0_5_apply (c : Dev nD) (t : Fin cfg0.N) (z : Fin 1) (k : Fin 64) :
    (iblk0 (F := Ideal) V c 5 t : Vec Ideal S1x64 .f32) (ix2 z k) = (V c main_v17 : S1x64.Idx → EReal) (ix2 z k) := by
  obtain ⟨-, -, -, -, -, -, -, -, -, -, e0, e1, -⟩ := idxFacts0 t
  unfold iblk0
  rw [View.read_apply]
  show V c main_v17 _ = V c main_v17 _
  congr 1
  funext a
  apply Fin.ext
  match a with
  | ⟨0, _⟩ => show win0_5.index t (0 : Fin 2) * 1 + 1 * z.val = z.val; rw [e0]; omega
  | ⟨1, _⟩ => show win0_5.index t (1 : Fin 2) * 64 + 1 * k.val = k.val; rw [e1]; omega

/-- Entry `(r, o)` of the output's block `t` sits at entry `(5000 t + r, o)` of the output array. -/
private theorem emb0_6 (t : Fin cfg0.N) (r : Fin 5000) (o : Fin 64) (n : Fin 50000) (hn : n.val = 5000 * t.val + r.val) :
    ((cfg0.win 6).blk t).view.emb (ix2 r o) = (ix2 n o : S50000x64.Idx) := by
  obtain ⟨-, -, -, -, -, -, -, -, -, -, -, -, e0, e1, -⟩ := idxFacts0 t
  funext a
  apply Fin.ext
  match a with
  | ⟨0, _⟩ => show win0_6.index t (0 : Fin 2) * 5000 + 1 * r.val = n.val; rw [e0, hn]; omega
  | ⟨1, _⟩ => show win0_6.index t (1 : Fin 2) * 64 + 1 * o.val = o.val; rw [e1]; omega

/-- A perceptron row depends on its five arguments only through their values. -/
private theorem mlpRow_congr0 {z z' : Fin 64 → EReal} {w1 w1' : Fin 64 → Fin 64 → EReal} {b1 b1' : Fin 64 → EReal}
    {w2 w2' : Fin 64 → Fin 64 → EReal} {b2 b2' : Fin 64 → EReal} (hz : z = z') (hw1 : w1 = w1') (hb1 : b1 = b1')
    (hw2 : w2 = w2') (hb2 : b2 = b2') (o : Fin 64) : mlpRow z w1 b1 w2 b2 o = mlpRow z' w1' b1' w2' b2' o := by
  subst hz hw1 hb1 hw2 hb2; rfl

/-- What point `t` writes back is block `t` of the layer of the arrays the region finds. -/
private theorem flushed0_eq (c : Dev nD) (t : Fin cfg0.N) :
    (dat0 (F := Ideal) V c).flushed 6 t = ((cfg0.win 6).blk t).view.read (Elt Ideal)
      (mlpLayer (V c main_v7) (V c main_arg0) (V c main_v9) (V c main_v16) (V c main_v13) (V c main_v17)) := by
  show (cfg0.win 6).cut (grid0.coords t) ((dat0 (F := Ideal) V c).after 6 t) = _
  rw [after0_6]
  unfold out0_6
  rw [View.canon_unit_zero zeroOff0]
  simp only [View.ld_unit_zero (S := S5000x64) zeroOff0, View.ld_unit_zero (S := S64x64) zeroOff0, View.ld_unit_zero (S := S1x64) zeroOff0]
  refine funext fun (j : S5000x64.Idx) => ?_
  obtain ⟨r, o, rfl⟩ : ∃ (r : Fin 5000) (o : Fin 64), j = ix2 r o := ⟨j 0, j 1, eq_ix2 j⟩
  have ht : t.val < 10 := (idxFacts0 t).2.2.2.2.2.2.2.2.2.2.2.2.2.2
  have hr : r.val < 5000 := r.isLt
  obtain ⟨n, hn⟩ : ∃ n : Fin 50000, n.val = 5000 * t.val + r.val := ⟨⟨5000 * t.val + r.val, by omega⟩, rfl⟩
  show k0_pay1 (F := Ideal) (iblk0 V c 0 t) (iblk0 V c 1 t) (iblk0 V c 2 t) (iblk0 V c 3 t) (iblk0 V c 4 t) (iblk0 V c 5 t) (ix2 r o)
    = mlpLayer (V c main_v7) (V c main_arg0) (V c main_v9) (V c main_v16) (V c main_v13) (V c main_v17) (((cfg0.win 6).blk t).view.emb (ix2 r o))
  refine (pay0_apply (iblk0 V c 0 t) (iblk0 V c 1 t) (iblk0 V c 2 t) (iblk0 V c 3 t) (iblk0 V c 4 t) (iblk0 V c 5 t) r o).trans ?_
  refine Eq.trans ?_ (congrArg (mlpLayer (V c main_v7) (V c main_arg0) (V c main_v9) (V c main_v16) (V c main_v13) (V c main_v17)) (emb0_6 t r o n hn)).symm
  refine Eq.trans ?_ (mlpLayer_apply (V c main_v7) (V c main_arg0) (V c main_v9) (V c main_v16) (V c main_v13) (V c main_v17) n o).symm
  exact mlpRow_congr0
    (funext fun j => by rw [blk0_0_apply V c t r j n hn, blk0_1_apply V c t r j n hn])
    (funext fun j => funext fun k => blk0_2_apply V c t j k)
    (funext fun k => blk0_3_apply V c t 0 k)
    (funext fun k => funext fun o' => blk0_4_apply V c t k o')
    (funext fun o' => blk0_5_apply V c t 0 o') o

/-- An index of the output array is in point `t`'s block iff each coordinate is in the block's range on its axis. -/
private theorem mem_blk0 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v18).slice (win0_6.rect t)).set ↔ _
  rw [View.set_slice_whole, Rect.mem_set_unit]
  exact Iff.rfl

/-- The ten blocks cover the output array: row `n` is in block `n / 5000`. -/
private theorem cover0 (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  obtain ⟨t, ht⟩ := idxOnto0 ⟨(i 0).val / 5000, by omega⟩
  have ht' : t.val = (i 0).val / 5000 := ht
  obtain ⟨-, -, -, -, -, -, -, -, -, -, -, -, e0, e1, -⟩ := idxFacts0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0, ht']; omega
  | ⟨1, _⟩ => show win0_6.index t (1 : Fin 2) * 64 ≤ (i 1).val ∧ (i 1).val < win0_6.index t (1 : Fin 2) * 64 + 64; rw [e1]; omega

theorem region0_out (c : Dev nD) :
    (dat0 (F := Ideal) V c).arrAt 6 cfg0.N = mlpLayer (V c main_v7) (V c main_arg0) (V c main_v9) (V c main_v16) (V c main_v13) (V c main_v17) :=
  (dat0 (F := Ideal) V c).arrAt_eq_of_cover 6
    (mlpLayer (V c main_v7) (V c main_arg0) (V c main_v9) (V c main_v16) (V c main_v13) (V c main_v17))
    (fun t _ => flushed0_eq V c t) cover0

end Cert.Gin

end
-- ==== Proof.Region1.lean ====
/-
  The second layer's kernel region as a function of the arrays it finds (the same kernel as the first layer's, over
  its own buffers).
-/
import proofs.«413928_j6339371728976_1_alg».proof.Proof.Gen.KernelIdeal.Frame
import proofs.«413928_j6339371728976_1_alg».proof.Proof.MlpBody
import Idealize.ShloMosaic.Lib.Pipeline.Value
import Idealize.ShloMosaic.Lib.ValueIdx

set_option maxRecDepth 16384

noncomputable section

open scoped BigOperators

namespace Cert.Gin

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

private theorem zeroOff1 : (![0, 0] : Fin 2 → Nat) = fun _ => 0 := funext fun a => by fin_cases a <;> rfl

/-- The windows' index maps at each of the ten grid points: the three large windows sit at row block `t`,
    column block 0; the four small windows at block (0, 0). -/
private theorem idxFacts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 10 :=
  (by decide +kernel : ∀ t : Fin grid1.N, _)

/-- Every row block is some point's. -/
private theorem idxOnto1 : ∀ q : Fin 10, ∃ t : Fin cfg1.N, t.val = q.val :=
  (by decide +kernel : ∀ q : Fin 10, ∃ t : Fin grid1.N, t.val = q.val)

/-- Row `r` of block `t` of the first large input is row `5000 t + r` of its array. -/
private theorem blk1_0_apply (c : Dev nD) (t : Fin cfg1.N) (r : Fin 5000) (j : Fin 64) (n : Fin 50000)
    (hn : n.val = 5000 * t.val + r.val) :
    (iblk1 (F := Ideal) V c 0 t : Vec Ideal S5000x64 .f32) (ix2 r j) = (V c main_v22 : S50000x64.Idx → EReal) (ix2 n j) := by
  obtain ⟨e0, e1, -⟩ := idxFacts1 t
  unfold iblk1
  rw [View.read_apply]
  show V c main_v22 _ = V c main_v22 _
  congr 1
  funext a
  apply Fin.ext
  match a with
  | ⟨0, _⟩ => show win1_0.index t (0 : Fin 2) * 5000 + 1 * r.val = n.val; rw [e0, hn]; omega
  | ⟨1, _⟩ => show win1_0.index t (1 : Fin 2) * 64 + 1 * j.val = j.val; rw [e1]; omega

/-- The same for the second large input. -/
private theorem blk1_1_apply (c : Dev nD) (t : Fin cfg1.N) (r : Fin 5000) (j : Fin 64) (n : Fin 50000)
    (hn : n.val = 5000 * t.val + r.val) :
    (iblk1 (F := Ideal) V c 1 t : Vec Ideal S5000x64 .f32) (ix2 r j) = (V c main_v18 : S50000x64.Idx → EReal) (ix2 n j) := by
  obtain ⟨-, -, e0, e1, -⟩ := idxFacts1 t
  unfold iblk1
  rw [View.read_apply]
  show V c main_v18 _ = V c main_v18 _
  congr 1
  funext a
  apply Fin.ext
  match a with
  | ⟨0, _⟩ => show win1_1.index t (0 : Fin 2) * 5000 + 1 * r.val = n.val; rw [e0, hn]; omega
  | ⟨1, _⟩ => show win1_1.index t (1 : Fin 2) * 64 + 1 * j.val = j.val; rw [e1]; omega

/-- The first weight window is its whole array at every point. -/
private theorem blk1_2_apply (c : Dev nD) (t : Fin cfg1.N) (j k : Fin 64) :
    (iblk1 (F := Ideal) V c 2 t : Vec Ideal S64x64 .f32) (ix2 j k) = (V c main_v24 : S64x64.Idx → EReal) (ix2 j k) := by
  obtain ⟨-, -, -, -, e0, e1, -⟩ := idxFacts1 t
  unfold iblk1
  rw [View.read_apply]
  show V c main_v24 _ = V c main_v24 _
  congr 1
  funext a
  apply Fin.ext
  match a with
  | ⟨0, _⟩ => show win1_2.index t (0 : Fin 2) * 64 + 1 * j.val = j.val; rw [e0]; omega
  | ⟨1, _⟩ => show win1_2.index t (1 : Fin 2) * 64 + 1 * k.val = k.val; rw [e1]; omega

/-- The first bias window is its whole row at every point. -/
private theorem blk1_3_apply (c : Dev nD) (t : Fin cfg1.N) (z : Fin 1) (k : Fin 64) :
    (iblk1 (F := Ideal) V c 3 t : Vec Ideal S1x64 .f32) (ix2 z k) = (V c main_v31 : S1x64.Idx → EReal) (ix2 z k) := by
  obtain ⟨-, -, -, -, -, -, e0, e1, -⟩ := idxFacts1 t
  unfold iblk1
  rw [View.read_apply]
  show V c main_v31 _ = V c main_v31 _
  congr 1
  funext a
  apply Fin.ext
  match a with
  | ⟨0, _⟩ => show win1_3.index t (0 : Fin 2) * 1 + 1 * z.val = z.val; rw [e0]; omega
  | ⟨1, _⟩ => show win1_3.index t (1 : Fin 2) * 64 + 1 * k.val = k.val; rw [e1]; omega

/-- The second weight window is its whole array at every point. -/
private theorem blk1_4_apply (c : Dev nD) (t : Fin cfg1.N) (j k : Fin 64) :
    (iblk1 (F := Ideal) V c 4 t : Vec Ideal S64x64 .f32) (ix2 j k) = (V c main_v28 : S64x64.Idx → EReal) (ix2 j k) := by
  obtain ⟨-, -, -, -, -, -, -, -, e0, e1, -⟩ := idxFacts1 t
  unfold iblk1
  rw [View.read_apply]
  show V c main_v28 _ = V c main_v28 _
  congr 1
  funext a
  apply Fin.ext
  match a with
  | ⟨0, _⟩ => show win1_4.index t (0 : Fin 2) * 64 + 1 * j.val = j.val; rw [e0]; omega
  | ⟨1, _⟩ => show win1_4.index t (1 : Fin 2) * 64 + 1 * k.val = k.val; rw [e1]; omega

/-- The second bias window is its whole row at every point. -/
private theorem blk1_5_apply (c : Dev nD) (t : Fin cfg1.N) (z : Fin 1) (k : Fin 64) :
    (iblk1 (F := Ideal) V c 5 t : Vec Ideal S1x64 .f32) (ix2 z k) = (V c main_v32 : S1x64.Idx → EReal) (ix2 z k) := by
  obtain ⟨-, -, -, -, -, -, -, -, -, -, e0, e1, -⟩ := idxFacts1 t
  unfold iblk1
  rw [View.read_apply]
  show V c main_v32 _ = V c main_v32 _
  congr 1
  funext a
  apply Fin.ext
  match a with
  | ⟨0, _⟩ => show win1_5.index t (0 : Fin 2) * 1 + 1 * z.val = z.val; rw [e0]; omega
  | ⟨1, _⟩ => show win1_5.index t (1 : Fin 2) * 64 + 1 * k.val = k.val; rw [e1]; omega

/-- Entry `(r, o)` of the output's block `t` sits at entry `(5000 t + r, o)` of the output array. -/
private theorem emb1_6 (t : Fin cfg1.N) (r : Fin 5000) (o : Fin 64) (n : Fin 50000) (hn : n.val = 5000 * t.val + r.val) :
    ((cfg1.win 6).blk t).view.emb (ix2 r o) = (ix2 n o : S50000x64.Idx) := by
  obtain ⟨-, -, -, -, -, -, -, -, -, -, -, -, e0, e1, -⟩ := idxFacts1 t
  funext a
  apply Fin.ext
  match a with
  | ⟨0, _⟩ => show win1_6.index t (0 : Fin 2) * 5000 + 1 * r.val = n.val; rw [e0, hn]; omega
  | ⟨1, _⟩ => show win1_6.index t (1 : Fin 2) * 64 + 1 * o.val = o.val; rw [e1]; omega

/-- A perceptron row depends on its five arguments only through their values. -/
private theorem mlpRow_congr1 {z z' : Fin 64 → EReal} {w1 w1' : Fin 64 → Fin 64 → EReal} {b1 b1' : Fin 64 → EReal}
    {w2 w2' : Fin 64 → Fin 64 → EReal} {b2 b2' : Fin 64 → EReal} (hz : z = z') (hw1 : w1 = w1') (hb1 : b1 = b1')
    (hw2 : w2 = w2') (hb2 : b2 = b2') (o : Fin 64) : mlpRow z w1 b1 w2 b2 o = mlpRow z' w1' b1' w2' b2' o := by
  subst hz hw1 hb1 hw2 hb2; rfl

/-- What point `t` writes back is block `t` of the layer of the arrays the region finds. -/
private theorem flushed1_eq (c : Dev nD) (t : Fin cfg1.N) :
    (dat1 (F := Ideal) V c).flushed 6 t = ((cfg1.win 6).blk t).view.read (Elt Ideal)
      (mlpLayer (V c main_v22) (V c main_v18) (V c main_v24) (V c main_v31) (V c main_v28) (V c main_v32)) := by
  show (cfg1.win 6).cut (grid1.coords t) ((dat1 (F := Ideal) V c).after 6 t) = _
  rw [after1_6]
  unfold out1_6
  rw [View.canon_unit_zero zeroOff1]
  simp only [View.ld_unit_zero (S := S5000x64) zeroOff1, View.ld_unit_zero (S := S64x64) zeroOff1, View.ld_unit_zero (S := S1x64) zeroOff1]
  refine funext fun (j : S5000x64.Idx) => ?_
  obtain ⟨r, o, rfl⟩ : ∃ (r : Fin 5000) (o : Fin 64), j = ix2 r o := ⟨j 0, j 1, eq_ix2 j⟩
  have ht : t.val < 10 := (idxFacts1 t).2.2.2.2.2.2.2.2.2.2.2.2.2.2
  have hr : r.val < 5000 := r.isLt
  obtain ⟨n, hn⟩ : ∃ n : Fin 50000, n.val = 5000 * t.val + r.val := ⟨⟨5000 * t.val + r.val, by omega⟩, rfl⟩
  show k1_pay1 (F := Ideal) (iblk1 V c 0 t) (iblk1 V c 1 t) (iblk1 V c 2 t) (iblk1 V c 3 t) (iblk1 V c 4 t) (iblk1 V c 5 t) (ix2 r o)
    = mlpLayer (V c main_v22) (V c main_v18) (V c main_v24) (V c main_v31) (V c main_v28) (V c main_v32) (((cfg1.win 6).blk t).view.emb (ix2 r o))
  refine (pay1_apply (iblk1 V c 0 t) (iblk1 V c 1 t) (iblk1 V c 2 t) (iblk1 V c 3 t) (iblk1 V c 4 t) (iblk1 V c 5 t) r o).trans ?_
  refine Eq.trans ?_ (congrArg (mlpLayer (V c main_v22) (V c main_v18) (V c main_v24) (V c main_v31) (V c main_v28) (V c main_v32)) (emb1_6 t r o n hn)).symm
  refine Eq.trans ?_ (mlpLayer_apply (V c main_v22) (V c main_v18) (V c main_v24) (V c main_v31) (V c main_v28) (V c main_v32) n o).symm
  exact mlpRow_congr1
    (funext fun j => by rw [blk1_0_apply V c t r j n hn, blk1_1_apply V c t r j n hn])
    (funext fun j => funext fun k => blk1_2_apply V c t j k)
    (funext fun k => blk1_3_apply V c t 0 k)
    (funext fun k => funext fun o' => blk1_4_apply V c t k o')
    (funext fun o' => blk1_5_apply V c t 0 o') o

/-- An index of the output array is in point `t`'s block iff each coordinate is in the block's range on its axis. -/
private theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v33).slice (win1_6.rect t)).set ↔ _
  rw [View.set_slice_whole, Rect.mem_set_unit]
  exact Iff.rfl

/-- The ten blocks cover the output array: row `n` is in block `n / 5000`. -/
private theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := idxOnto1 ⟨(i 0).val / 5000, by omega⟩
  have ht' : t.val = (i 0).val / 5000 := ht
  obtain ⟨-, -, -, -, -, -, -, -, -, -, -, -, e0, e1, -⟩ := idxFacts1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e0, ht']; omega
  | ⟨1, _⟩ => show win1_6.index t (1 : Fin 2) * 64 ≤ (i 1).val ∧ (i 1).val < win1_6.index t (1 : Fin 2) * 64 + 64; rw [e1]; omega

theorem region1_out (c : Dev nD) :
    (dat1 (F := Ideal) V c).arrAt 6 cfg1.N = mlpLayer (V c main_v22) (V c main_v18) (V c main_v24) (V c main_v31) (V c main_v28) (V c main_v32) :=
  (dat1 (F := Ideal) V c).arrAt_eq_of_cover 6
    (mlpLayer (V c main_v22) (V c main_v18) (V c main_v24) (V c main_v31) (V c main_v28) (V c main_v32))
    (fun t _ => flushed1_eq V c t) cover1

end Cert.Gin

end
-- ==== Proof.Region2.lean ====
/-
  The third layer's kernel region as a function of the arrays it finds (the same kernel as the first layer's, over
  its own buffers).
-/
import proofs.«413928_j6339371728976_1_alg».proof.Proof.Gen.KernelIdeal.Frame
import proofs.«413928_j6339371728976_1_alg».proof.Proof.MlpBody
import Idealize.ShloMosaic.Lib.Pipeline.Value
import Idealize.ShloMosaic.Lib.ValueIdx

set_option maxRecDepth 16384

noncomputable section

open scoped BigOperators

namespace Cert.Gin

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

private theorem zeroOff2 : (![0, 0] : Fin 2 → Nat) = fun _ => 0 := funext fun a => by fin_cases a <;> rfl

/-- The windows' index maps at each of the ten grid points: the three large windows sit at row block `t`,
    column block 0; the four small windows at block (0, 0). -/
private theorem idxFacts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ t.val < 10 :=
  (by decide +kernel : ∀ t : Fin grid2.N, _)

/-- Every row block is some point's. -/
private theorem idxOnto2 : ∀ q : Fin 10, ∃ t : Fin cfg2.N, t.val = q.val :=
  (by decide +kernel : ∀ q : Fin 10, ∃ t : Fin grid2.N, t.val = q.val)

/-- Row `r` of block `t` of the first large input is row `5000 t + r` of its array. -/
private theorem blk2_0_apply (c : Dev nD) (t : Fin cfg2.N) (r : Fin 5000) (j : Fin 64) (n : Fin 50000)
    (hn : n.val = 5000 * t.val + r.val) :
    (iblk2 (F := Ideal) V c 0 t : Vec Ideal S5000x64 .f32) (ix2 r j) = (V c main_v37 : S50000x64.Idx → EReal) (ix2 n j) := by
  obtain ⟨e0, e1, -⟩ := idxFacts2 t
  unfold iblk2
  rw [View.read_apply]
  show V c main_v37 _ = V c main_v37 _
  congr 1
  funext a
  apply Fin.ext
  match a with
  | ⟨0, _⟩ => show win2_0.index t (0 : Fin 2) * 5000 + 1 * r.val = n.val; rw [e0, hn]; omega
  | ⟨1, _⟩ => show win2_0.index t (1 : Fin 2) * 64 + 1 * j.val = j.val; rw [e1]; omega

/-- The same for the second large input. -/
private theorem blk2_1_apply (c : Dev nD) (t : Fin cfg2.N) (r : Fin 5000) (j : Fin 64) (n : Fin 50000)
    (hn : n.val = 5000 * t.val + r.val) :
    (iblk2 (F := Ideal) V c 1 t : Vec Ideal S5000x64 .f32) (ix2 r j) = (V c main_v33 : S50000x64.Idx → EReal) (ix2 n j) := by
  obtain ⟨-, -, e0, e1, -⟩ := idxFacts2 t
  unfold iblk2
  rw [View.read_apply]
  show V c main_v33 _ = V c main_v33 _
  congr 1
  funext a
  apply Fin.ext
  match a with
  | ⟨0, _⟩ => show win2_1.index t (0 : Fin 2) * 5000 + 1 * r.val = n.val; rw [e0, hn]; omega
  | ⟨1, _⟩ => show win2_1.index t (1 : Fin 2) * 64 + 1 * j.val = j.val; rw [e1]; omega

/-- The first weight window is its whole array at every point. -/
private theorem blk2_2_apply (c : Dev nD) (t : Fin cfg2.N) (j k : Fin 64) :
    (iblk2 (F := Ideal) V c 2 t : Vec Ideal S64x64 .f32) (ix2 j k) = (V c main_v39 : S64x64.Idx → EReal) (ix2 j k) := by
  obtain ⟨-, -, -, -, e0, e1, -⟩ := idxFacts2 t
  unfold iblk2
  rw [View.read_apply]
  show V c main_v39 _ = V c main_v39 _
  congr 1
  funext a
  apply Fin.ext
  match a with
  | ⟨0, _⟩ => show win2_2.index t (0 : Fin 2) * 64 + 1 * j.val = j.val; rw [e0]; omega
  | ⟨1, _⟩ => show win2_2.index t (1 : Fin 2) * 64 + 1 * k.val = k.val; rw [e1]; omega

/-- The first bias window is its whole row at every point. -/
private theorem blk2_3_apply (c : Dev nD) (t : Fin cfg2.N) (z : Fin 1) (k : Fin 64) :
    (iblk2 (F := Ideal) V c 3 t : Vec Ideal S1x64 .f32) (ix2 z k) = (V c main_v46 : S1x64.Idx → EReal) (ix2 z k) := by
  obtain ⟨-, -, -, -, -, -, e0, e1, -⟩ := idxFacts2 t
  unfold iblk2
  rw [View.read_apply]
  show V c main_v46 _ = V c main_v46 _
  congr 1
  funext a
  apply Fin.ext
  match a with
  | ⟨0, _⟩ => show win2_3.index t (0 : Fin 2) * 1 + 1 * z.val = z.val; rw [e0]; omega
  | ⟨1, _⟩ => show win2_3.index t (1 : Fin 2) * 64 + 1 * k.val = k.val; rw [e1]; omega

/-- The second weight window is its whole array at every point. -/
private theorem blk2_4_apply (c : Dev nD) (t : Fin cfg2.N) (j k : Fin 64) :
    (iblk2 (F := Ideal) V c 4 t : Vec Ideal S64x64 .f32) (ix2 j k) = (V c main_v43 : S64x64.Idx → EReal) (ix2 j k) := by
  obtain ⟨-, -, -, -, -, -, -, -, e0, e1, -⟩ := idxFacts2 t
  unfold iblk2
  rw [View.read_apply]
  show V c main_v43 _ = V c main_v43 _
  congr 1
  funext a
  apply Fin.ext
  match a with
  | ⟨0, _⟩ => show win2_4.index t (0 : Fin 2) * 64 + 1 * j.val = j.val; rw [e0]; omega
  | ⟨1, _⟩ => show win2_4.index t (1 : Fin 2) * 64 + 1 * k.val = k.val; rw [e1]; omega

/-- The second bias window is its whole row at every point. -/
private theorem blk2_5_apply (c : Dev nD) (t : Fin cfg2.N) (z : Fin 1) (k : Fin 64) :
    (iblk2 (F := Ideal) V c 5 t : Vec Ideal S1x64 .f32) (ix2 z k) = (V c main_v47 : S1x64.Idx → EReal) (ix2 z k) := by
  obtain ⟨-, -, -, -, -, -, -, -, -, -, e0, e1, -⟩ := idxFacts2 t
  unfold iblk2
  rw [View.read_apply]
  show V c main_v47 _ = V c main_v47 _
  congr 1
  funext a
  apply Fin.ext
  match a with
  | ⟨0, _⟩ => show win2_5.index t (0 : Fin 2) * 1 + 1 * z.val = z.val; rw [e0]; omega
  | ⟨1, _⟩ => show win2_5.index t (1 : Fin 2) * 64 + 1 * k.val = k.val; rw [e1]; omega

/-- Entry `(r, o)` of the output's block `t` sits at entry `(5000 t + r, o)` of the output array. -/
private theorem emb2_6 (t : Fin cfg2.N) (r : Fin 5000) (o : Fin 64) (n : Fin 50000) (hn : n.val = 5000 * t.val + r.val) :
    ((cfg2.win 6).blk t).view.emb (ix2 r o) = (ix2 n o : S50000x64.Idx) := by
  obtain ⟨-, -, -, -, -, -, -, -, -, -, -, -, e0, e1, -⟩ := idxFacts2 t
  funext a
  apply Fin.ext
  match a with
  | ⟨0, _⟩ => show win2_6.index t (0 : Fin 2) * 5000 + 1 * r.val = n.val; rw [e0, hn]; omega
  | ⟨1, _⟩ => show win2_6.index t (1 : Fin 2) * 64 + 1 * o.val = o.val; rw [e1]; omega

/-- A perceptron row depends on its five arguments only through their values. -/
private theorem mlpRow_congr2 {z z' : Fin 64 → EReal} {w1 w1' : Fin 64 → Fin 64 → EReal} {b1 b1' : Fin 64 → EReal}
    {w2 w2' : Fin 64 → Fin 64 → EReal} {b2 b2' : Fin 64 → EReal} (hz : z = z') (hw1 : w1 = w1') (hb1 : b1 = b1')
    (hw2 : w2 = w2') (hb2 : b2 = b2') (o : Fin 64) : mlpRow z w1 b1 w2 b2 o = mlpRow z' w1' b1' w2' b2' o := by
  subst hz hw1 hb1 hw2 hb2; rfl

/-- What point `t` writes back is block `t` of the layer of the arrays the region finds. -/
private theorem flushed2_eq (c : Dev nD) (t : Fin cfg2.N) :
    (dat2 (F := Ideal) V c).flushed 6 t = ((cfg2.win 6).blk t).view.read (Elt Ideal)
      (mlpLayer (V c main_v37) (V c main_v33) (V c main_v39) (V c main_v46) (V c main_v43) (V c main_v47)) := by
  show (cfg2.win 6).cut (grid2.coords t) ((dat2 (F := Ideal) V c).after 6 t) = _
  rw [after2_6]
  unfold out2_6
  rw [View.canon_unit_zero zeroOff2]
  simp only [View.ld_unit_zero (S := S5000x64) zeroOff2, View.ld_unit_zero (S := S64x64) zeroOff2, View.ld_unit_zero (S := S1x64) zeroOff2]
  refine funext fun (j : S5000x64.Idx) => ?_
  obtain ⟨r, o, rfl⟩ : ∃ (r : Fin 5000) (o : Fin 64), j = ix2 r o := ⟨j 0, j 1, eq_ix2 j⟩
  have ht : t.val < 10 := (idxFacts2 t).2.2.2.2.2.2.2.2.2.2.2.2.2.2
  have hr : r.val < 5000 := r.isLt
  obtain ⟨n, hn⟩ : ∃ n : Fin 50000, n.val = 5000 * t.val + r.val := ⟨⟨5000 * t.val + r.val, by omega⟩, rfl⟩
  show k2_pay1 (F := Ideal) (iblk2 V c 0 t) (iblk2 V c 1 t) (iblk2 V c 2 t) (iblk2 V c 3 t) (iblk2 V c 4 t) (iblk2 V c 5 t) (ix2 r o)
    = mlpLayer (V c main_v37) (V c main_v33) (V c main_v39) (V c main_v46) (V c main_v43) (V c main_v47) (((cfg2.win 6).blk t).view.emb (ix2 r o))
  refine (pay2_apply (iblk2 V c 0 t) (iblk2 V c 1 t) (iblk2 V c 2 t) (iblk2 V c 3 t) (iblk2 V c 4 t) (iblk2 V c 5 t) r o).trans ?_
  refine Eq.trans ?_ (congrArg (mlpLayer (V c main_v37) (V c main_v33) (V c main_v39) (V c main_v46) (V c main_v43) (V c main_v47)) (emb2_6 t r o n hn)).symm
  refine Eq.trans ?_ (mlpLayer_apply (V c main_v37) (V c main_v33) (V c main_v39) (V c main_v46) (V c main_v43) (V c main_v47) n o).symm
  exact mlpRow_congr2
    (funext fun j => by rw [blk2_0_apply V c t r j n hn, blk2_1_apply V c t r j n hn])
    (funext fun j => funext fun k => blk2_2_apply V c t j k)
    (funext fun k => blk2_3_apply V c t 0 k)
    (funext fun k => funext fun o' => blk2_4_apply V c t k o')
    (funext fun o' => blk2_5_apply V c t 0 o') o

/-- An index of the output array is in point `t`'s block iff each coordinate is in the block's range on its axis. -/
private theorem mem_blk2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v48).slice (win2_6.rect t)).set ↔ _
  rw [View.set_slice_whole, Rect.mem_set_unit]
  exact Iff.rfl

/-- The ten blocks cover the output array: row `n` is in block `n / 5000`. -/
private theorem cover2 (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  obtain ⟨t, ht⟩ := idxOnto2 ⟨(i 0).val / 5000, by omega⟩
  have ht' : t.val = (i 0).val / 5000 := ht
  obtain ⟨-, -, -, -, -, -, -, -, -, -, -, -, e0, e1, -⟩ := idxFacts2 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; rw [e0, ht']; omega
  | ⟨1, _⟩ => show win2_6.index t (1 : Fin 2) * 64 ≤ (i 1).val ∧ (i 1).val < win2_6.index t (1 : Fin 2) * 64 + 64; rw [e1]; omega

theorem region2_out (c : Dev nD) :
    (dat2 (F := Ideal) V c).arrAt 6 cfg2.N = mlpLayer (V c main_v37) (V c main_v33) (V c main_v39) (V c main_v46) (V c main_v43) (V c main_v47) :=
  (dat2 (F := Ideal) V c).arrAt_eq_of_cover 6
    (mlpLayer (V c main_v37) (V c main_v33) (V c main_v39) (V c main_v46) (V c main_v43) (V c main_v47))
    (fun t _ => flushed2_eq V c t) cover2

end Cert.Gin

end
-- ==== Proof.Region3.lean ====
/-
  The readout kernel's region as a function of the arrays it finds: one grid point whose blocks are the whole arrays;
  the output holds, at graph `g` and output `o`, the readout of the graph's summed row and count.
-/
import proofs.«413928_j6339371728976_1_alg».proof.Proof.Gen.KernelIdeal.Frame
import proofs.«413928_j6339371728976_1_alg».proof.Proof.MlpBody

set_option maxRecDepth 16384

noncomputable section

open scoped BigOperators

namespace Cert.Gin

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, as the constant function. -/
private theorem pool_zeros : (![0, 0] : Fin 2 → Nat) = fun _ => 0 := funext fun a => by fin_cases a <;> rfl

/-- The one grid point: every window's block index is zero on both axes. -/
private theorem pool_idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The block of the summed rows is the whole array: entry (g, k) of the block is entry (g, k) of the array. -/
private theorem pool_blk0_apply (c : Dev nD) (t : Fin cfg3.N) (g : Fin 128) (k : Fin 64) :
    (iblk3 V c 0 t : Vec Ideal S128x64 .f32) (ix2 g k) = (V c main_v51 : S128x64.Idx → EReal) (ix2 g k) := by
  obtain ⟨e0, e1, -⟩ := pool_idx_facts t
  unfold iblk3
  rw [View.read_apply]
  show V c main_v51 _ = V c main_v51 _
  congr 1
  funext a; apply Fin.ext
  match a with
  | ⟨0, _⟩ => show win3_0.index t (0 : Fin 2) * 128 + 1 * g.val = g.val; rw [e0]; omega
  | ⟨1, _⟩ => show win3_0.index t (1 : Fin 2) * 64 + 1 * k.val = k.val; rw [e1]; omega

/-- The block of the counts is the whole column. -/
private theorem pool_blk1_apply (c : Dev nD) (t : Fin cfg3.N) (g : Fin 128) (z : Fin 1) :
    (iblk3 V c 1 t : Vec Ideal S128x1 .f32) (ix2 g z) = (V c main_v55 : S128x1.Idx → EReal) (ix2 g z) := by
  obtain ⟨-, -, e0, e1, -⟩ := pool_idx_facts t
  unfold iblk3
  rw [View.read_apply]
  show V c main_v55 _ = V c main_v55 _
  congr 1
  funext a; apply Fin.ext
  match a with
  | ⟨0, _⟩ => show win3_1.index t (0 : Fin 2) * 128 + 1 * g.val = g.val; rw [e0]; omega
  | ⟨1, _⟩ => show win3_1.index t (1 : Fin 2) * 1 + 1 * z.val = z.val; rw [e1]; omega

/-- The block of the final map is the whole matrix. -/
private theorem pool_blk2_apply (c : Dev nD) (t : Fin cfg3.N) (k : Fin 64) (o : Fin 32) :
    (iblk3 V c 2 t : Vec Ideal S64x32 .f32) (ix2 k o) = (V c main_arg7 : S64x32.Idx → EReal) (ix2 k o) := by
  obtain ⟨-, -, -, -, e0, e1, -⟩ := pool_idx_facts t
  unfold iblk3
  rw [View.read_apply]
  show V c main_arg7 _ = V c main_arg7 _
  congr 1
  funext a; apply Fin.ext
  match a with
  | ⟨0, _⟩ => show win3_2.index t (0 : Fin 2) * 64 + 1 * k.val = k.val; rw [e0]; omega
  | ⟨1, _⟩ => show win3_2.index t (1 : Fin 2) * 32 + 1 * o.val = o.val; rw [e1]; omega

/-- The block of the bias is the whole row. -/
private theorem pool_blk3_apply (c : Dev nD) (t : Fin cfg3.N) (z : Fin 1) (o : Fin 32) :
    (iblk3 V c 3 t : Vec Ideal S1x32 .f32) (ix2 z o) = (V c main_v56 : S1x32.Idx → EReal) (ix2 z o) := by
  obtain ⟨-, -, -, -, -, -, e0, e1, -⟩ := pool_idx_facts t
  unfold iblk3
  rw [View.read_apply]
  show V c main_v56 _ = V c main_v56 _
  congr 1
  funext a; apply Fin.ext
  match a with
  | ⟨0, _⟩ => show win3_3.index t (0 : Fin 2) * 1 + 1 * z.val = z.val; rw [e0]; omega
  | ⟨1, _⟩ => show win3_3.index t (1 : Fin 2) * 32 + 1 * o.val = o.val; rw [e1]; omega

/-- What the point writes back is its block of the readout of the four arrays as the region finds them. -/
private theorem pool_flushed_eq (c : Dev nD) (t : Fin cfg3.N) :
    (dat3 (F := Ideal) V c).flushed 4 t = ((cfg3.win 4).blk t).view.read (Elt Ideal)
      (poolOut (V c main_v51) (V c main_v55) (V c main_arg7) (V c main_v56)) := by
  show (cfg3.win 4).cut (grid3.coords t) ((dat3 (F := Ideal) V c).after 4 t) = _
  rw [after3_4]
  unfold out3_4
  rw [View.canon_unit_zero pool_zeros]
  simp only [View.ld_unit_zero (S := S128x64) pool_zeros, View.ld_unit_zero (S := S128x1) pool_zeros,
    View.ld_unit_zero (S := S64x32) pool_zeros, View.ld_unit_zero (S := S1x32) pool_zeros]
  funext j
  obtain ⟨g, o, rfl⟩ : ∃ (g : Fin 128) (o : Fin 32), j = ix2 g o := ⟨j 0, j 1, eq_ix2 j⟩
  have hemb : ((cfg3.win 4).blk t).view.emb (ix2 g o) = ix2 g o := by
    obtain ⟨-, -, -, -, -, -, -, -, e0, e1⟩ := pool_idx_facts t
    funext a; apply Fin.ext
    match a with
    | ⟨0, _⟩ => show win3_4.index t (0 : Fin 2) * 128 + 1 * g.val = g.val; rw [e0]; omega
    | ⟨1, _⟩ => show win3_4.index t (1 : Fin 2) * 32 + 1 * o.val = o.val; rw [e1]; omega
  show k3_pay1 (F := Ideal) (iblk3 V c 0 t) (iblk3 V c 1 t) (iblk3 V c 2 t) (iblk3 V c 3 t) (ix2 g o)
    = poolOut (V c main_v51) (V c main_v55) (V c main_arg7) (V c main_v56) (((cfg3.win 4).blk t).view.emb (ix2 g o))
  rw [hemb, poolOut_apply]
  refine (pay3_apply (iblk3 V c 0 t) (iblk3 V c 1 t) (iblk3 V c 2 t) (iblk3 V c 3 t) g o).trans ?_
  have h0 : (fun k => (iblk3 V c 0 t : Vec Ideal S128x64 .f32) (ix2 g k)) = fun k => (V c main_v51 : S128x64.Idx → EReal) (ix2 g k) :=
    funext fun k => pool_blk0_apply V c t g k
  have h2 : (fun k o => (iblk3 V c 2 t : Vec Ideal S64x32 .f32) (ix2 k o)) = fun k o => (V c main_arg7 : S64x32.Idx → EReal) (ix2 k o) :=
    funext fun k => funext fun o => pool_blk2_apply V c t k o
  have h3 : (fun o => (iblk3 V c 3 t : Vec Ideal S1x32 .f32) (ix2 (0 : Fin 1) o)) = fun o => (V c main_v56 : S1x32.Idx → EReal) (ix2 (0 : Fin 1) o) :=
    funext fun o => pool_blk3_apply V c t 0 o
  rw [h0, h2, h3, pool_blk1_apply V c t g 0]

/-- Every entry of the output array is in the one point's block. -/
private theorem pool_mem_blk (t : Fin cfg3.N) (i : S128x32.Idx) : i ∈ ((cfg3.win 4).blk t).view.set := by
  show i ∈ ((View.whole main_v57).slice (win3_4.rect t)).set
  rw [View.set_slice_whole, Rect.mem_set_unit]
  obtain ⟨-, -, -, -, -, -, -, -, e0, e1⟩ := pool_idx_facts t
  have h0 : (i 0).val < 128 := idx2_lt0 i
  have h1 : (i 1).val < 32 := idx2_lt1 i
  intro a
  match a with
  | ⟨0, _⟩ => show win3_4.index t (0 : Fin 2) * 128 ≤ (i 0).val ∧ (i 0).val < win3_4.index t (0 : Fin 2) * 128 + 128; rw [e0]; omega
  | ⟨1, _⟩ => show win3_4.index t (1 : Fin 2) * 32 ≤ (i 1).val ∧ (i 1).val < win3_4.index t (1 : Fin 2) * 32 + 32; rw [e1]; omega

theorem region3_out (c : Dev nD) :
    (dat3 (F := Ideal) V c).arrAt 4 cfg3.N = poolOut (V c main_v51) (V c main_v55) (V c main_arg7) (V c main_v56) :=
  (dat3 (F := Ideal) V c).arrAt_eq_of_cover 4 (poolOut (V c main_v51) (V c main_v55) (V c main_arg7) (V c main_v56))
    (fun t _ => pool_flushed_eq V c t) fun i => ⟨t3_0, flush3_4 t3_0, pool_mem_blk t3_0 i⟩

end Cert.Gin

end
-- ==== Proof.KernelChain.lean ====
/-
  The kernel program's result buffer, read back to the arguments.

  The program's run passes thirteen boundaries: the launch, the end of each stretch of array operations, and the exit
  of each of the four kernel launches. Two kinds of fact are carried along them. The edge table's two rows and the
  arguments that later stages read are made once and never written again (`Base`). The node rows after layer `l` are
  the launch's output array, which is the perceptron layer of the neighbour sums and the rows before it; the neighbour
  sums are the scattered sum of the looked-up rows, both read from the boundary before. Composing the boundaries in
  program order gives the result buffer as `outOf aggFill` of the nine arguments.
-/
import proofs.«413928_j6339371728976_1_alg».proof.Proof.Gen.KernelIdeal.Frame
import proofs.«413928_j6339371728976_1_alg».proof.Proof.KernelTerm
import proofs.«413928_j6339371728976_1_alg».proof.Proof.KernelStretch
import proofs.«413928_j6339371728976_1_alg».proof.Proof.KernelKeep
import proofs.«413928_j6339371728976_1_alg».proof.Proof.Region0
import proofs.«413928_j6339371728976_1_alg».proof.Proof.Region1
import proofs.«413928_j6339371728976_1_alg».proof.Proof.Region2
import proofs.«413928_j6339371728976_1_alg».proof.Proof.Region3

set_option maxRecDepth 16384

noncomputable section

namespace Cert.Gin.Chain

open Cert.Gin Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- What every boundary after the first stretch holds unchanged: the two rows of the edge table and the arguments
    that later stages read. -/
structure Base (W : Valuation τ sig (Elt Ideal)) : Prop where
  src : W (Proc.devRef .tc main_v1) = srcOf (m ((c.tc : Thread nD τ).loc main_arg1))
  dst : W (Proc.devRef .tc main_v3) = dstOf (m ((c.tc : Thread nD τ).loc main_arg1))
  a2 : W (Proc.devRef .tc main_arg2) = (m ((c.tc : Thread nD τ).loc main_arg2))
  a3 : W (Proc.devRef .tc main_arg3) = (m ((c.tc : Thread nD τ).loc main_arg3))
  a4 : W (Proc.devRef .tc main_arg4) = (m ((c.tc : Thread nD τ).loc main_arg4))
  a5 : W (Proc.devRef .tc main_arg5) = (m ((c.tc : Thread nD τ).loc main_arg5))
  a6 : W (Proc.devRef .tc main_arg6) = (m ((c.tc : Thread nD τ).loc main_arg6))
  a7 : W (Proc.devRef .tc main_arg7) = (m ((c.tc : Thread nD τ).loc main_arg7))
  a8 : W (Proc.devRef .tc main_arg8) = (m ((c.tc : Thread nD τ).loc main_arg8))

/-! ## The carried facts, boundary by boundary -/

theorem base1 : Base m c (W1 m ρ c) :=
  ⟨Stretch.src0 (W0 m ρ c), Stretch.dst0 (W0 m ρ c),
    Keep.keep0 (W0 m ρ c) main_arg2 (by decide), Keep.keep0 (W0 m ρ c) main_arg3 (by decide),
    Keep.keep0 (W0 m ρ c) main_arg4 (by decide), Keep.keep0 (W0 m ρ c) main_arg5 (by decide),
    Keep.keep0 (W0 m ρ c) main_arg6 (by decide), Keep.keep0 (W0 m ρ c) main_arg7 (by decide),
    Keep.keep0 (W0 m ρ c) main_arg8 (by decide)⟩

theorem base2 : Base m c (W2 m ρ c) :=
  ⟨(Keep.keep0_1 (W1 m ρ c) main_v1 (by decide)).trans (base1 m ρ c).src,
    (Keep.keep0_1 (W1 m ρ c) main_v3 (by decide)).trans (base1 m ρ c).dst,
    (Keep.keep0_1 (W1 m ρ c) main_arg2 (by decide)).trans (base1 m ρ c).a2,
    (Keep.keep0_1 (W1 m ρ c) main_arg3 (by decide)).trans (base1 m ρ c).a3,
    (Keep.keep0_1 (W1 m ρ c) main_arg4 (by decide)).trans (base1 m ρ c).a4,
    (Keep.keep0_1 (W1 m ρ c) main_arg5 (by decide)).trans (base1 m ρ c).a5,
    (Keep.keep0_1 (W1 m ρ c) main_arg6 (by decide)).trans (base1 m ρ c).a6,
    (Keep.keep0_1 (W1 m ρ c) main_arg7 (by decide)).trans (base1 m ρ c).a7,
    (Keep.keep0_1 (W1 m ρ c) main_arg8 (by decide)).trans (base1 m ρ c).a8⟩

theorem base3 : Base m c (W3 m ρ c) :=
  ⟨(Keep.keep0_2 (W2 m ρ c) main_v1 (by decide)).trans (base2 m ρ c).src,
    (Keep.keep0_2 (W2 m ρ c) main_v3 (by decide)).trans (base2 m ρ c).dst,
    (Keep.keep0_2 (W2 m ρ c) main_arg2 (by decide)).trans (base2 m ρ c).a2,
    (Keep.keep0_2 (W2 m ρ c) main_arg3 (by decide)).trans (base2 m ρ c).a3,
    (Keep.keep0_2 (W2 m ρ c) main_arg4 (by decide)).trans (base2 m ρ c).a4,
    (Keep.keep0_2 (W2 m ρ c) main_arg5 (by decide)).trans (base2 m ρ c).a5,
    (Keep.keep0_2 (W2 m ρ c) main_arg6 (by decide)).trans (base2 m ρ c).a6,
    (Keep.keep0_2 (W2 m ρ c) main_arg7 (by decide)).trans (base2 m ρ c).a7,
    (Keep.keep0_2 (W2 m ρ c) main_arg8 (by decide)).trans (base2 m ρ c).a8⟩

theorem base4 : Base m c (W4 m ρ c) :=
  ⟨(Keep.exit0 m ρ c main_v1 (by decide)).trans (base3 m ρ c).src,
    (Keep.exit0 m ρ c main_v3 (by decide)).trans (base3 m ρ c).dst,
    (Keep.exit0 m ρ c main_arg2 (by decide)).trans (base3 m ρ c).a2,
    (Keep.exit0 m ρ c main_arg3 (by decide)).trans (base3 m ρ c).a3,
    (Keep.exit0 m ρ c main_arg4 (by decide)).trans (base3 m ρ c).a4,
    (Keep.exit0 m ρ c main_arg5 (by decide)).trans (base3 m ρ c).a5,
    (Keep.exit0 m ρ c main_arg6 (by decide)).trans (base3 m ρ c).a6,
    (Keep.exit0 m ρ c main_arg7 (by decide)).trans (base3 m ρ c).a7,
    (Keep.exit0 m ρ c main_arg8 (by decide)).trans (base3 m ρ c).a8⟩

theorem base5 : Base m c (W5 m ρ c) :=
  ⟨(Keep.keep1 (W4 m ρ c) main_v1 (by decide)).trans (base4 m ρ c).src,
    (Keep.keep1 (W4 m ρ c) main_v3 (by decide)).trans (base4 m ρ c).dst,
    (Keep.keep1 (W4 m ρ c) main_arg2 (by decide)).trans (base4 m ρ c).a2,
    (Keep.keep1 (W4 m ρ c) main_arg3 (by decide)).trans (base4 m ρ c).a3,
    (Keep.keep1 (W4 m ρ c) main_arg4 (by decide)).trans (base4 m ρ c).a4,
    (Keep.keep1 (W4 m ρ c) main_arg5 (by decide)).trans (base4 m ρ c).a5,
    (Keep.keep1 (W4 m ρ c) main_arg6 (by decide)).trans (base4 m ρ c).a6,
    (Keep.keep1 (W4 m ρ c) main_arg7 (by decide)).trans (base4 m ρ c).a7,
    (Keep.keep1 (W4 m ρ c) main_arg8 (by decide)).trans (base4 m ρ c).a8⟩

theorem base6 : Base m c (W6 m ρ c) :=
  ⟨(Keep.keep1_1 (W5 m ρ c) main_v1 (by decide)).trans (base5 m ρ c).src,
    (Keep.keep1_1 (W5 m ρ c) main_v3 (by decide)).trans (base5 m ρ c).dst,
    (Keep.keep1_1 (W5 m ρ c) main_arg2 (by decide)).trans (base5 m ρ c).a2,
    (Keep.keep1_1 (W5 m ρ c) main_arg3 (by decide)).trans (base5 m ρ c).a3,
    (Keep.keep1_1 (W5 m ρ c) main_arg4 (by decide)).trans (base5 m ρ c).a4,
    (Keep.keep1_1 (W5 m ρ c) main_arg5 (by decide)).trans (base5 m ρ c).a5,
    (Keep.keep1_1 (W5 m ρ c) main_arg6 (by decide)).trans (base5 m ρ c).a6,
    (Keep.keep1_1 (W5 m ρ c) main_arg7 (by decide)).trans (base5 m ρ c).a7,
    (Keep.keep1_1 (W5 m ρ c) main_arg8 (by decide)).trans (base5 m ρ c).a8⟩

theorem base7 : Base m c (W7 m ρ c) :=
  ⟨(Keep.exit1 m ρ c main_v1 (by decide)).trans (base6 m ρ c).src,
    (Keep.exit1 m ρ c main_v3 (by decide)).trans (base6 m ρ c).dst,
    (Keep.exit1 m ρ c main_arg2 (by decide)).trans (base6 m ρ c).a2,
    (Keep.exit1 m ρ c main_arg3 (by decide)).trans (base6 m ρ c).a3,
    (Keep.exit1 m ρ c main_arg4 (by decide)).trans (base6 m ρ c).a4,
    (Keep.exit1 m ρ c main_arg5 (by decide)).trans (base6 m ρ c).a5,
    (Keep.exit1 m ρ c main_arg6 (by decide)).trans (base6 m ρ c).a6,
    (Keep.exit1 m ρ c main_arg7 (by decide)).trans (base6 m ρ c).a7,
    (Keep.exit1 m ρ c main_arg8 (by decide)).trans (base6 m ρ c).a8⟩

theorem base8 : Base m c (W8 m ρ c) :=
  ⟨(Keep.keep2 (W7 m ρ c) main_v1 (by decide)).trans (base7 m ρ c).src,
    (Keep.keep2 (W7 m ρ c) main_v3 (by decide)).trans (base7 m ρ c).dst,
    (Keep.keep2 (W7 m ρ c) main_arg2 (by decide)).trans (base7 m ρ c).a2,
    (Keep.keep2 (W7 m ρ c) main_arg3 (by decide)).trans (base7 m ρ c).a3,
    (Keep.keep2 (W7 m ρ c) main_arg4 (by decide)).trans (base7 m ρ c).a4,
    (Keep.keep2 (W7 m ρ c) main_arg5 (by decide)).trans (base7 m ρ c).a5,
    (Keep.keep2 (W7 m ρ c) main_arg6 (by decide)).trans (base7 m ρ c).a6,
    (Keep.keep2 (W7 m ρ c) main_arg7 (by decide)).trans (base7 m ρ c).a7,
    (Keep.keep2 (W7 m ρ c) main_arg8 (by decide)).trans (base7 m ρ c).a8⟩

theorem base9 : Base m c (W9 m ρ c) :=
  ⟨(Keep.keep2_1 (W8 m ρ c) main_v1 (by decide)).trans (base8 m ρ c).src,
    (Keep.keep2_1 (W8 m ρ c) main_v3 (by decide)).trans (base8 m ρ c).dst,
    (Keep.keep2_1 (W8 m ρ c) main_arg2 (by decide)).trans (base8 m ρ c).a2,
    (Keep.keep2_1 (W8 m ρ c) main_arg3 (by decide)).trans (base8 m ρ c).a3,
    (Keep.keep2_1 (W8 m ρ c) main_arg4 (by decide)).trans (base8 m ρ c).a4,
    (Keep.keep2_1 (W8 m ρ c) main_arg5 (by decide)).trans (base8 m ρ c).a5,
    (Keep.keep2_1 (W8 m ρ c) main_arg6 (by decide)).trans (base8 m ρ c).a6,
    (Keep.keep2_1 (W8 m ρ c) main_arg7 (by decide)).trans (base8 m ρ c).a7,
    (Keep.keep2_1 (W8 m ρ c) main_arg8 (by decide)).trans (base8 m ρ c).a8⟩

theorem base10 : Base m c (W10 m ρ c) :=
  ⟨(Keep.exit2 m ρ c main_v1 (by decide)).trans (base9 m ρ c).src,
    (Keep.exit2 m ρ c main_v3 (by decide)).trans (base9 m ρ c).dst,
    (Keep.exit2 m ρ c main_arg2 (by decide)).trans (base9 m ρ c).a2,
    (Keep.exit2 m ρ c main_arg3 (by decide)).trans (base9 m ρ c).a3,
    (Keep.exit2 m ρ c main_arg4 (by decide)).trans (base9 m ρ c).a4,
    (Keep.exit2 m ρ c main_arg5 (by decide)).trans (base9 m ρ c).a5,
    (Keep.exit2 m ρ c main_arg6 (by decide)).trans (base9 m ρ c).a6,
    (Keep.exit2 m ρ c main_arg7 (by decide)).trans (base9 m ρ c).a7,
    (Keep.exit2 m ρ c main_arg8 (by decide)).trans (base9 m ρ c).a8⟩

/-! ## Layer 0 -/

/-- The argument rows reach layer 0's launch unchanged. -/
theorem rows0 : W3 m ρ c (Proc.devRef .tc main_arg0) = (m ((c.tc : Thread nD τ).loc main_arg0)) :=
  (Keep.keep0_2 (W2 m ρ c) main_arg0 (by decide)).trans
    ((Keep.keep0_1 (W1 m ρ c) main_arg0 (by decide)).trans (Keep.keep0 (W0 m ρ c) main_arg0 (by decide)))

/-- Layer 0's neighbour sums. -/
theorem agg0 : W3 m ρ c (Proc.devRef .tc main_v7) = aggFill (m ((c.tc : Thread nD τ).loc main_arg0)) (m ((c.tc : Thread nD τ).loc main_arg1)) := by
  refine (Stretch.agg0 (W2 m ρ c)).trans ?_
  have hrows : W1 m ρ c (Proc.devRef .tc main_arg0) = (m ((c.tc : Thread nD τ).loc main_arg0)) := Keep.keep0 (W0 m ρ c) main_arg0 (by decide)
  rw [(base2 m ρ c).dst]
  dsimp only [W2]
  rw [Stretch.take0 (W1 m ρ c), hrows, (base1 m ρ c).src]
  rfl

/-- The node rows after layer 0. -/
theorem rows1 : W4 m ρ c (Proc.devRef .tc main_v18) =
    h1Of aggFill (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W4_arr m ρ c 6).trans ((region0_out (V3 m ρ) c).trans ?_)
  show mlpLayer (W3 m ρ c (Proc.devRef .tc main_v7)) (W3 m ρ c (Proc.devRef .tc main_arg0)) (W3 m ρ c (Proc.devRef .tc main_v9))
    (W3 m ρ c (Proc.devRef .tc main_v16)) (W3 m ρ c (Proc.devRef .tc main_v13)) (W3 m ρ c (Proc.devRef .tc main_v17)) = _
  rw [agg0 m ρ c, rows0 m ρ c]
  dsimp only [W3]
  rw [Stretch.w1_0 (W2 m ρ c), Stretch.b1_0 (W2 m ρ c), Stretch.w2_0 (W2 m ρ c), Stretch.b2_0 (W2 m ρ c),
    (base2 m ρ c).a3, (base2 m ρ c).a4, (base2 m ρ c).a5, (base2 m ρ c).a6]
  rfl

/-! ## Layer 1 -/

/-- Layer 0's rows reach layer 1's launch unchanged. -/
theorem rows1_at6 : W6 m ρ c (Proc.devRef .tc main_v18) = W4 m ρ c (Proc.devRef .tc main_v18) :=
  (Keep.keep1_1 (W5 m ρ c) main_v18 (by decide)).trans (Keep.keep1 (W4 m ρ c) main_v18 (by decide))

/-- Layer 1's neighbour sums. -/
theorem agg1 : W6 m ρ c (Proc.devRef .tc main_v22) =
    aggFill (h1Of aggFill (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) := by
  refine (Stretch.agg1 (W5 m ρ c)).trans ?_
  rw [(base5 m ρ c).dst]
  dsimp only [W5]
  rw [Stretch.take1 (W4 m ρ c), rows1 m ρ c, (base4 m ρ c).src]
  rfl

/-- The node rows after layer 1. -/
theorem rows2 : W7 m ρ c (Proc.devRef .tc main_v33) =
    h2Of aggFill (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W7_arr m ρ c 6).trans ((region1_out (V6 m ρ) c).trans ?_)
  show mlpLayer (W6 m ρ c (Proc.devRef .tc main_v22)) (W6 m ρ c (Proc.devRef .tc main_v18)) (W6 m ρ c (Proc.devRef .tc main_v24))
    (W6 m ρ c (Proc.devRef .tc main_v31)) (W6 m ρ c (Proc.devRef .tc main_v28)) (W6 m ρ c (Proc.devRef .tc main_v32)) = _
  rw [agg1 m ρ c, rows1_at6 m ρ c, rows1 m ρ c]
  dsimp only [W6]
  rw [Stretch.w1_1 (W5 m ρ c), Stretch.b1_1 (W5 m ρ c), Stretch.w2_1 (W5 m ρ c),
    Stretch.b2_1 (W5 m ρ c), (base5 m ρ c).a3, (base5 m ρ c).a4, (base5 m ρ c).a5, (base5 m ρ c).a6]
  rfl

/-! ## Layer 2 -/

/-- Layer 1's rows reach layer 2's launch unchanged. -/
theorem rows2_at9 : W9 m ρ c (Proc.devRef .tc main_v33) = W7 m ρ c (Proc.devRef .tc main_v33) :=
  (Keep.keep2_1 (W8 m ρ c) main_v33 (by decide)).trans (Keep.keep2 (W7 m ρ c) main_v33 (by decide))

/-- Layer 2's neighbour sums. -/
theorem agg2 : W9 m ρ c (Proc.devRef .tc main_v37) =
    aggFill (h2Of aggFill (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1)) := by
  refine (Stretch.agg2 (W8 m ρ c)).trans ?_
  rw [(base8 m ρ c).dst]
  dsimp only [W8]
  rw [Stretch.take2 (W7 m ρ c), rows2 m ρ c, (base7 m ρ c).src]
  rfl

/-- The node rows after layer 2. -/
theorem rows3 : W10 m ρ c (Proc.devRef .tc main_v48) =
    h3Of aggFill (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W10_arr m ρ c 6).trans ((region2_out (V9 m ρ) c).trans ?_)
  show mlpLayer (W9 m ρ c (Proc.devRef .tc main_v37)) (W9 m ρ c (Proc.devRef .tc main_v33)) (W9 m ρ c (Proc.devRef .tc main_v39))
    (W9 m ρ c (Proc.devRef .tc main_v46)) (W9 m ρ c (Proc.devRef .tc main_v43)) (W9 m ρ c (Proc.devRef .tc main_v47)) = _
  rw [agg2 m ρ c, rows2_at9 m ρ c, rows2 m ρ c]
  dsimp only [W9]
  rw [Stretch.w1_2 (W8 m ρ c), Stretch.b1_2 (W8 m ρ c), Stretch.w2_2 (W8 m ρ c),
    Stretch.b2_2 (W8 m ρ c), (base8 m ρ c).a3, (base8 m ρ c).a4, (base8 m ρ c).a5, (base8 m ρ c).a6]
  rfl

/-! ## The readout -/

/-- The result buffer after the last launch, as a function of the nine arguments. -/
theorem result : W12 m ρ c (Proc.devRef .tc main_v57) =
    outOf aggFill (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W12_arr m ρ c 4).trans ((region3_out (V11 m ρ) c).trans ?_)
  show poolOut (W11 m ρ c (Proc.devRef .tc main_v51)) (W11 m ρ c (Proc.devRef .tc main_v55)) (W11 m ρ c (Proc.devRef .tc main_arg7))
    (W11 m ρ c (Proc.devRef .tc main_v56)) = _
  dsimp only [W11]
  rw [Stretch.sums3 (W10 m ρ c), Stretch.cnts3 (W10 m ρ c), Keep.keep3 (W10 m ρ c), Stretch.bias3 (W10 m ρ c),
    rows3 m ρ c, (base10 m ρ c).a2, (base10 m ρ c).a7, (base10 m ρ c).a8]
  rfl

end Cert.Gin.Chain

end
-- ==== Proof.RefLayers.lean ====
/-
  The reference program, layer by layer.

  Each layer of the reference adds the summed neighbour rows to the current rows, multiplies by the layer's first
  weight matrix, adds the first bias, takes the maximum with zero, multiplies by the second matrix, adds the second
  bias and takes the maximum with zero again: entry `(n, o)` of the result is `mlpRow` of row `n`. The pooled readout
  divides each graph's summed row by the larger of its count and one, multiplies by the final matrix and adds the final
  bias: entry `(g, o)` is `poolRow` of graph `g`. The lookups and the scattered sums are left as they stand.
-/
import proofs.«413928_j6339371728976_1_alg».proof.Proof.Gen.ReferenceIdeal.Read
import proofs.«413928_j6339371728976_1_alg».proof.Proof.Spec
import proofs.«413928_j6339371728976_1_alg».proof.Proof.LibDot

noncomputable section

open scoped BigOperators

namespace Cert.Gin

open Cert.ReferenceIdeal Cert.ReferenceIdeal.Gen Cert.ReferenceIdeal.Read Idealize.ShloMosaic Idealize.ShloMosaic.ValueIdx

theorem ref_layer0 (x0 : (⟨S50000x64, .f32⟩ : BufTy).Contents (Elt Ideal)) (x1 : (⟨S2x800000, .i32⟩ : BufTy).Contents (Elt Ideal)) (x3 : (⟨S3x64x64, .f32⟩ : BufTy).Contents (Elt Ideal))
    (x4 : (⟨S3x64, .f32⟩ : BufTy).Contents (Elt Ideal)) (x5 : (⟨S3x64x64, .f32⟩ : BufTy).Contents (Elt Ideal)) (x6 : (⟨S3x64, .f32⟩ : BufTy).Contents (Elt Ideal)) :
    val_main_v32 (F := Ideal) x0 x1 x3 x4 x5 x6 =
      mlpLayer (val_main_v13 (F := Ideal) x0 x1) x0 (val_main_v16 (F := Ideal) x3) (val_main_v20 (F := Ideal) x4)
        (val_main_v25 (F := Ideal) x5) (val_main_v29 (F := Ideal) x6) := by
  funext i
  obtain ⟨n, o, rfl⟩ : ∃ (n : Fin 50000) (o : Fin 64), i = ix2 n o := ⟨i 0, i 1, eq_ix2 i⟩
  rw [mlpLayer_apply]
  unfold mlpRow
  -- the second product, at entry `(n, o)`, reads row `n` of its left operand and column `o` of its right operand; its
  -- bias row is read at `o`
  have e1 : ∀ k : Fin 64, lidx_main_v26 (ix2 n o) k = ix2 n k := fun k => funext fun a => match a with | ⟨0, _⟩ => rfl | ⟨1, _⟩ => rfl
  have e2 : ∀ k : Fin 64, ridx_main_v26 (ix2 n o) k = ix2 k o := fun k => funext fun a => match a with | ⟨0, _⟩ => rfl | ⟨1, _⟩ => rfl
  have e3 : idx_main_v30 (ix2 n o) = ix2 (0 : Fin 1) o := funext fun a => match a with | ⟨0, _⟩ => rfl | ⟨1, _⟩ => rfl
  -- the first product, at entry `(n, k)`, reads row `n` and column `k`; its bias row is read at `k`
  have e4 : ∀ k j : Fin 64, lidx_main_v17 (ix2 n k) j = ix2 n j := fun k j => funext fun a => match a with | ⟨0, _⟩ => rfl | ⟨1, _⟩ => rfl
  have e5 : ∀ k j : Fin 64, ridx_main_v17 (ix2 n k) j = ix2 j k := fun k j => funext fun a => match a with | ⟨0, _⟩ => rfl | ⟨1, _⟩ => rfl
  have e6 : ∀ k : Fin 64, idx_main_v21 (ix2 n k) = ix2 (0 : Fin 1) k := fun k => funext fun a => match a with | ⟨0, _⟩ => rfl | ⟨1, _⟩ => rfl
  -- the hidden unit `k` of node `n`
  have hid : ∀ k : Fin 64, val_main_v23 (F := Ideal) x0 x1 x3 x4 (ix2 n k) =
      max ((∑ j : Fin 64, (val_main_v13 (F := Ideal) x0 x1 (ix2 n j) + x0 (ix2 n j)) * val_main_v16 (F := Ideal) x3 (ix2 j k)) + val_main_v20 (F := Ideal) x4 (ix2 (0 : Fin 1) k)) zeroE := by
    intro k
    rw [val_main_v23_apply, val_main_v22_apply, val_main_v17_apply, val_main_v21_apply, val_main_call0_v0_apply,
      val_main_call0_cst_apply, e6 k]
    refine congrArg (fun s => max (s + val_main_v20 (F := Ideal) x4 (ix2 (0 : Fin 1) k)) zeroE) ?_
    refine Finset.sum_congr rfl fun j _ => ?_
    rw [e4 k j, e5 k j, val_main_v14_apply]
    rfl
  rw [val_main_v32_apply, val_main_v31_apply, val_main_v26_apply, val_main_v30_apply, val_main_call1_v0_apply,
    val_main_call1_cst_apply, e3]
  refine congrArg (fun s => max (s + val_main_v29 (F := Ideal) x6 (ix2 (0 : Fin 1) o)) zeroE) ?_
  refine Finset.sum_congr rfl fun k _ => ?_
  rw [e1 k, e2 k, hid k]

theorem ref_layer1 (x0 : (⟨S50000x64, .f32⟩ : BufTy).Contents (Elt Ideal)) (x1 : (⟨S2x800000, .i32⟩ : BufTy).Contents (Elt Ideal)) (x3 : (⟨S3x64x64, .f32⟩ : BufTy).Contents (Elt Ideal))
    (x4 : (⟨S3x64, .f32⟩ : BufTy).Contents (Elt Ideal)) (x5 : (⟨S3x64x64, .f32⟩ : BufTy).Contents (Elt Ideal)) (x6 : (⟨S3x64, .f32⟩ : BufTy).Contents (Elt Ideal)) :
    val_main_v61 (F := Ideal) x0 x1 x3 x4 x5 x6 =
      mlpLayer (val_main_v42 (F := Ideal) x0 x1 x3 x4 x5 x6) (val_main_v32 (F := Ideal) x0 x1 x3 x4 x5 x6) (val_main_v45 (F := Ideal) x3)
        (val_main_v49 (F := Ideal) x4) (val_main_v54 (F := Ideal) x5) (val_main_v58 (F := Ideal) x6) := by
  funext i
  obtain ⟨n, o, rfl⟩ : ∃ (n : Fin 50000) (o : Fin 64), i = ix2 n o := ⟨i 0, i 1, eq_ix2 i⟩
  rw [mlpLayer_apply]
  unfold mlpRow
  -- the second product, at entry `(n, o)`, reads row `n` of its left operand and column `o` of its right operand; its
  -- bias row is read at `o`
  have e1 : ∀ k : Fin 64, lidx_main_v55 (ix2 n o) k = ix2 n k := fun k => funext fun a => match a with | ⟨0, _⟩ => rfl | ⟨1, _⟩ => rfl
  have e2 : ∀ k : Fin 64, ridx_main_v55 (ix2 n o) k = ix2 k o := fun k => funext fun a => match a with | ⟨0, _⟩ => rfl | ⟨1, _⟩ => rfl
  have e3 : idx_main_v59 (ix2 n o) = ix2 (0 : Fin 1) o := funext fun a => match a with | ⟨0, _⟩ => rfl | ⟨1, _⟩ => rfl
  -- the first product, at entry `(n, k)`, reads row `n` and column `k`; its bias row is read at `k`
  have e4 : ∀ k j : Fin 64, lidx_main_v46 (ix2 n k) j = ix2 n j := fun k j => funext fun a => match a with | ⟨0, _⟩ => rfl | ⟨1, _⟩ => rfl
  have e5 : ∀ k j : Fin 64, ridx_main_v46 (ix2 n k) j = ix2 j k := fun k j => funext fun a => match a with | ⟨0, _⟩ => rfl | ⟨1, _⟩ => rfl
  have e6 : ∀ k : Fin 64, idx_main_v50 (ix2 n k) = ix2 (0 : Fin 1) k := fun k => funext fun a => match a with | ⟨0, _⟩ => rfl | ⟨1, _⟩ => rfl
  -- the hidden unit `k` of node `n`
  have hid : ∀ k : Fin 64, val_main_v52 (F := Ideal) x0 x1 x3 x4 x5 x6 (ix2 n k) =
      max ((∑ j : Fin 64, (val_main_v42 (F := Ideal) x0 x1 x3 x4 x5 x6 (ix2 n j) + val_main_v32 (F := Ideal) x0 x1 x3 x4 x5 x6 (ix2 n j)) * val_main_v45 (F := Ideal) x3 (ix2 j k)) + val_main_v49 (F := Ideal) x4 (ix2 (0 : Fin 1) k)) zeroE := by
    intro k
    rw [val_main_v52_apply, val_main_v51_apply, val_main_v46_apply, val_main_v50_apply, val_main_call2_v0_apply,
      val_main_call2_cst_apply, e6 k]
    refine congrArg (fun s => max (s + val_main_v49 (F := Ideal) x4 (ix2 (0 : Fin 1) k)) zeroE) ?_
    refine Finset.sum_congr rfl fun j _ => ?_
    rw [e4 k j, e5 k j, val_main_v43_apply]
    rfl
  rw [val_main_v61_apply, val_main_v60_apply, val_main_v55_apply, val_main_v59_apply, val_main_call3_v0_apply,
    val_main_call3_cst_apply, e3]
  refine congrArg (fun s => max (s + val_main_v58 (F := Ideal) x6 (ix2 (0 : Fin 1) o)) zeroE) ?_
  refine Finset.sum_congr rfl fun k _ => ?_
  rw [e1 k, e2 k, hid k]

theorem ref_layer2 (x0 : (⟨S50000x64, .f32⟩ : BufTy).Contents (Elt Ideal)) (x1 : (⟨S2x800000, .i32⟩ : BufTy).Contents (Elt Ideal)) (x3 : (⟨S3x64x64, .f32⟩ : BufTy).Contents (Elt Ideal))
    (x4 : (⟨S3x64, .f32⟩ : BufTy).Contents (Elt Ideal)) (x5 : (⟨S3x64x64, .f32⟩ : BufTy).Contents (Elt Ideal)) (x6 : (⟨S3x64, .f32⟩ : BufTy).Contents (Elt Ideal)) :
    val_main_v90 (F := Ideal) x0 x1 x3 x4 x5 x6 =
      mlpLayer (val_main_v71 (F := Ideal) x0 x1 x3 x4 x5 x6) (val_main_v61 (F := Ideal) x0 x1 x3 x4 x5 x6) (val_main_v74 (F := Ideal) x3)
        (val_main_v78 (F := Ideal) x4) (val_main_v83 (F := Ideal) x5) (val_main_v87 (F := Ideal) x6) := by
  funext i
  obtain ⟨n, o, rfl⟩ : ∃ (n : Fin 50000) (o : Fin 64), i = ix2 n o := ⟨i 0, i 1, eq_ix2 i⟩
  rw [mlpLayer_apply]
  unfold mlpRow
  -- the second product, at entry `(n, o)`, reads row `n` of its left operand and column `o` of its right operand; its
  -- bias row is read at `o`
  have e1 : ∀ k : Fin 64, lidx_main_v84 (ix2 n o) k = ix2 n k := fun k => funext fun a => match a with | ⟨0, _⟩ => rfl | ⟨1, _⟩ => rfl
  have e2 : ∀ k : Fin 64, ridx_main_v84 (ix2 n o) k = ix2 k o := fun k => funext fun a => match a with | ⟨0, _⟩ => rfl | ⟨1, _⟩ => rfl
  have e3 : idx_main_v88 (ix2 n o) = ix2 (0 : Fin 1) o := funext fun a => match a with | ⟨0, _⟩ => rfl | ⟨1, _⟩ => rfl
  -- the first product, at entry `(n, k)`, reads row `n` and column `k`; its bias row is read at `k`
  have e4 : ∀ k j : Fin 64, lidx_main_v75 (ix2 n k) j = ix2 n j := fun k j => funext fun a => match a with | ⟨0, _⟩ => rfl | ⟨1, _⟩ => rfl
  have e5 : ∀ k j : Fin 64, ridx_main_v75 (ix2 n k) j = ix2 j k := fun k j => funext fun a => match a with | ⟨0, _⟩ => rfl | ⟨1, _⟩ => rfl
  have e6 : ∀ k : Fin 64, idx_main_v79 (ix2 n k) = ix2 (0 : Fin 1) k := fun k => funext fun a => match a with | ⟨0, _⟩ => rfl | ⟨1, _⟩ => rfl
  -- the hidden unit `k` of node `n`
  have hid : ∀ k : Fin 64, val_main_v81 (F := Ideal) x0 x1 x3 x4 x5 x6 (ix2 n k) =
      max ((∑ j : Fin 64, (val_main_v71 (F := Ideal) x0 x1 x3 x4 x5 x6 (ix2 n j) + val_main_v61 (F := Ideal) x0 x1 x3 x4 x5 x6 (ix2 n j)) * val_main_v74 (F := Ideal) x3 (ix2 j k)) + val_main_v78 (F := Ideal) x4 (ix2 (0 : Fin 1) k)) zeroE := by
    intro k
    rw [val_main_v81_apply, val_main_v80_apply, val_main_v75_apply, val_main_v79_apply, val_main_call4_v0_apply,
      val_main_call4_cst_apply, e6 k]
    refine congrArg (fun s => max (s + val_main_v78 (F := Ideal) x4 (ix2 (0 : Fin 1) k)) zeroE) ?_
    refine Finset.sum_congr rfl fun j _ => ?_
    rw [e4 k j, e5 k j, val_main_v72_apply]
    rfl
  rw [val_main_v90_apply, val_main_v89_apply, val_main_v84_apply, val_main_v88_apply, val_main_call5_v0_apply,
    val_main_call5_cst_apply, e3]
  refine congrArg (fun s => max (s + val_main_v87 (F := Ideal) x6 (ix2 (0 : Fin 1) o)) zeroE) ?_
  refine Finset.sum_congr rfl fun k _ => ?_
  rw [e1 k, e2 k, hid k]

theorem ref_out (x0 : (⟨S50000x64, .f32⟩ : BufTy).Contents (Elt Ideal)) (x1 : (⟨S2x800000, .i32⟩ : BufTy).Contents (Elt Ideal)) (x2 : (⟨S50000, .i32⟩ : BufTy).Contents (Elt Ideal))
    (x3 : (⟨S3x64x64, .f32⟩ : BufTy).Contents (Elt Ideal)) (x4 : (⟨S3x64, .f32⟩ : BufTy).Contents (Elt Ideal)) (x5 : (⟨S3x64x64, .f32⟩ : BufTy).Contents (Elt Ideal)) (x6 : (⟨S3x64, .f32⟩ : BufTy).Contents (Elt Ideal))
    (x7 : (⟨S64x32, .f32⟩ : BufTy).Contents (Elt Ideal)) (x8 : (⟨S32, .f32⟩ : BufTy).Contents (Elt Ideal)) :
    val_main_v105 (F := Ideal) x0 x1 x2 x3 x4 x5 x6 x7 x8 =
      poolOut (val_main_v93 (F := Ideal) x0 x1 x2 x3 x4 x5 x6) (val_main_v97 (F := Ideal) x2) x7 (val_main_v103 (F := Ideal) x8) := by
  funext i
  obtain ⟨g, o, rfl⟩ : ∃ (g : Fin 128) (o : Fin 32), i = ix2 g o := ⟨i 0, i 1, eq_ix2 i⟩
  rw [poolOut_apply]
  unfold poolRow
  -- the final product, at entry `(g, o)`, reads row `g` of the divided sums and column `o` of the matrix; the divisor of
  -- entry `(g, k)` is read at `(g, 0)` of the count column; the bias row is read at `o`
  have f1 : ∀ k : Fin 64, lidx_main_v102 (ix2 g o) k = ix2 g k := fun k => funext fun a => match a with | ⟨0, _⟩ => rfl | ⟨1, _⟩ => rfl
  have f2 : ∀ k : Fin 64, ridx_main_v102 (ix2 g o) k = ix2 k o := fun k => funext fun a => match a with | ⟨0, _⟩ => rfl | ⟨1, _⟩ => rfl
  have f3 : ∀ k : Fin 64, idx_main_v100 (ix2 g k) = ix2 g (0 : Fin 1) := fun k => funext fun a => match a with | ⟨0, _⟩ => rfl | ⟨1, _⟩ => rfl
  have f4 : idx_main_v104 (ix2 g o) = ix2 (0 : Fin 1) o := funext fun a => match a with | ⟨0, _⟩ => rfl | ⟨1, _⟩ => rfl
  rw [val_main_v105_apply, val_main_v102_apply, val_main_v104_apply, f4]
  refine congrArg (fun s => s + val_main_v103 (F := Ideal) x8 (ix2 (0 : Fin 1) o)) ?_
  refine Finset.sum_congr rfl fun k _ => ?_
  rw [f1 k, f2 k, val_main_v101_apply, val_main_v100_apply, f3 k, val_main_v99_apply, val_main_v98_apply, val_main_cst_10_apply]
  rfl

end Cert.Gin

end
-- ==== Proof.LibRowForms.lean ====
/-
  A vector laid out as a row, two ways.

  An `[n]` vector becomes a `[1, n]` row either by a shape cast or by a broadcast along axis 1; the two rows are the
  same array: entry `(0, q)` of either is entry `q` of the vector.
-/
import Idealize.ShloMosaic.Lib.ValueIdx
import Idealize.ShloMosaic.Lib.Pipeline.Value
import Idealize.ShloMosaic.Lib.ValueLayout
import Idealize.ShloMosaic.Lib.StableHlo.Predicate

namespace Cert.LibRowForms

open Idealize.ShloMosaic Idealize.ShloMosaic.ValueIdx

/-- The cast of an `[n]` vector to a `[1, n]` row is its broadcast along axis 1. -/
theorem row_cast_eq_bcast {α : Type} {n : Nat} (v : (⟨1, ![n]⟩ : Shape).Idx → α)
    (h₁ : (⟨1, ![n]⟩ : Shape).ShapeCasts ⟨2, ![1, n]⟩)
    (h₂ : (⟨1, ![n]⟩ : Shape).BroadcastsInDim ⟨2, ![1, n]⟩ (![1] : Fin 1 → Fin (⟨2, ![1, n]⟩ : Shape).rank)) :
    shapeCast ⟨2, ![1, n]⟩ v h₁ = broadcastInDim ⟨2, ![1, n]⟩ ![1] h₂ v := by
  -- Entry by entry: an index of the row is (u, q) with u the unit coordinate. The cast reads the vector at q,
  -- whatever u is; the broadcast along axis 1 reads the vector at the row index's coordinate on axis 1, which is q
  -- (when n = 1 the vector's one axis is a unit axis and is read at 0, which is again q).
  funext i
  obtain ⟨u, q, rfl⟩ : ∃ (u : Fin 1) (q : Fin n), i = ix2 u q := ⟨i 0, i 1, eq_ix2 i⟩
  rw [shapeCast_a_1a_apply]
  refine (broadcastInDim_apply ![1] h₂ v (ix2 u q) (ix1 q) fun a => ?_).symm
  match a with
  | ⟨0, _⟩ =>
    show q.val = if n = 1 then 0 else q.val
    split
    · have := q.isLt; omega
    · rfl

end Cert.LibRowForms
-- ==== Proof.Bridge.lean ====
/-
  The two programs' results are one function of the arguments.

  With the plain row lookup the kernel's program and the reference apply the same operations outside the perceptron
  and readout stages: the same slices of the stacked weights, the same lookup and scattered sums; the stages themselves
  are `mlpLayer` and `poolOut` on both sides. The one difference of form is a bias row, which the kernel's program gets
  by casting a 64-vector to a `1 × 64` row and the reference by broadcasting it along axis 1: the same row. With every
  source index in range the filled lookup is the plain one.
-/
import proofs.«413928_j6339371728976_1_alg».proof.Proof.KernelTerm
import proofs.«413928_j6339371728976_1_alg».proof.Proof.RefLayers
import proofs.«413928_j6339371728976_1_alg».proof.Proof.LibRowForms

noncomputable section

namespace Cert.Gin

open Cert.KernelIdeal Cert.KernelIdeal.Gen Idealize.ShloMosaic Idealize.ShloMosaic.TcCoe Idealize.ShloMosaic.ValueIdx Idealize.SL.Sem

section Copies

open Cert.ReferenceIdeal.Read

/-! The two programs print the same lookups and scattered sums, each over its own copy of the shapes and dimension
    records: stated once for arbitrary node rows. -/

/-- The neighbour sums of any node rows, in the reference's layer-0 form. -/
private theorem agg_ref0 (h : FVec Ideal S50000x64 .f32) (x1 : IVec S2x800000 32) :
    aggPlain h x1 = Host.scatterAdd Cert.ReferenceIdeal.scatter_S50000x64_S800000x1_S800000x64_1_0_0_1
      (val_main_v11 (F := Ideal)) (val_main_v12 (F := Ideal) x1)
      (Host.gather Cert.ReferenceIdeal.gather_S50000x64_S800000x1_S800000x64_1_0_n_n_0_1_164 h (val_main_v9 (F := Ideal) x1)) := by
  unfold aggPlain scatterNodes colOf dstOf gatherRows wrapIdx srcOf
  unfold val_main_v11 val_main_v12 val_main_v9 val_main_v8 val_main_v7 val_main_v6 val_main_v5 val_main_v4 val_main_v3 val_main_v2
    val_main_v1 val_main_v0 val_main_cst val_main_c val_main_c_0
  rfl

/-- The same in the reference's layer-1 form. -/
private theorem agg_ref1 (h : FVec Ideal S50000x64 .f32) (x1 : IVec S2x800000 32) :
    aggPlain h x1 = Host.scatterAdd Cert.ReferenceIdeal.scatter_S50000x64_S800000x1_S800000x64_1_0_0_1
      (val_main_v40 (F := Ideal)) (val_main_v41 (F := Ideal) x1)
      (Host.gather Cert.ReferenceIdeal.gather_S50000x64_S800000x1_S800000x64_1_0_n_n_0_1_164 h (val_main_v38 (F := Ideal) x1)) := by
  unfold aggPlain scatterNodes colOf dstOf gatherRows wrapIdx srcOf
  unfold val_main_v40 val_main_v41 val_main_v38 val_main_v37 val_main_v36 val_main_v35 val_main_v34 val_main_v33 val_main_v3 val_main_v2
    val_main_v1 val_main_v0 val_main_cst_3 val_main_c_1 val_main_c_2
  rfl

/-- The same in the reference's layer-2 form. -/
private theorem agg_ref2 (h : FVec Ideal S50000x64 .f32) (x1 : IVec S2x800000 32) :
    aggPlain h x1 = Host.scatterAdd Cert.ReferenceIdeal.scatter_S50000x64_S800000x1_S800000x64_1_0_0_1
      (val_main_v69 (F := Ideal)) (val_main_v70 (F := Ideal) x1)
      (Host.gather Cert.ReferenceIdeal.gather_S50000x64_S800000x1_S800000x64_1_0_n_n_0_1_164 h (val_main_v67 (F := Ideal) x1)) := by
  unfold aggPlain scatterNodes colOf dstOf gatherRows wrapIdx srcOf
  unfold val_main_v69 val_main_v70 val_main_v67 val_main_v66 val_main_v65 val_main_v64 val_main_v63 val_main_v62 val_main_v3 val_main_v2
    val_main_v1 val_main_v0 val_main_cst_6 val_main_c_4 val_main_c_5
  rfl

/-- The per-graph sums of any node rows, in the reference's form. -/
private theorem sums_ref (x2 : IVec S50000 32) (h : FVec Ideal S50000x64 .f32) :
    sumsK x2 h = Host.scatterAdd Cert.ReferenceIdeal.scatter_S128x64_S50000x1_S50000x64_1_0_0_1
      (val_main_v91 (F := Ideal)) (val_main_v92 (F := Ideal) x2) h := by
  unfold sumsK
  unfold val_main_v91 val_main_v92 val_main_cst_7
  rfl

/-- The per-graph node counts are the reference's. -/
private theorem cnts_ref (x2 : IVec S50000 32) : cntsK x2 = val_main_v97 (F := Ideal) x2 := by
  unfold cntsK
  unfold val_main_v97 val_main_v96 val_main_v95 val_main_v94 val_main_cst_9 val_main_cst_8
  rfl

/-- The three matrices of a stack are the reference's slices. -/
private theorem w0_ref (W : FVec Ideal S3x64x64 .f32) : wK0 W = val_main_v16 (F := Ideal) W := by
  unfold wK0 val_main_v16 val_main_v15; rfl
private theorem w0'_ref (W : FVec Ideal S3x64x64 .f32) : wK0 W = val_main_v25 (F := Ideal) W := by
  unfold wK0 val_main_v25 val_main_v24; rfl
private theorem w1_ref (W : FVec Ideal S3x64x64 .f32) : wK1 W = val_main_v45 (F := Ideal) W := by
  unfold wK1 val_main_v45 val_main_v44; rfl
private theorem w1'_ref (W : FVec Ideal S3x64x64 .f32) : wK1 W = val_main_v54 (F := Ideal) W := by
  unfold wK1 val_main_v54 val_main_v53; rfl
private theorem w2_ref (W : FVec Ideal S3x64x64 .f32) : wK2 W = val_main_v74 (F := Ideal) W := by
  unfold wK2 val_main_v74 val_main_v73; rfl
private theorem w2'_ref (W : FVec Ideal S3x64x64 .f32) : wK2 W = val_main_v83 (F := Ideal) W := by
  unfold wK2 val_main_v83 val_main_v82; rfl

/-- The bias rows: a cast of the 64-vector on one side, its broadcast along axis 1 on the other. -/
private theorem b0_ref (b : FVec Ideal S3x64 .f32) : rowK (bV0 b) = val_main_v20 (F := Ideal) b := by
  unfold rowK bV0 val_main_v20 val_main_v19 val_main_v18
  exact Cert.LibRowForms.row_cast_eq_bcast _ _ _
private theorem b0'_ref (b : FVec Ideal S3x64 .f32) : rowK (bV0 b) = val_main_v29 (F := Ideal) b := by
  unfold rowK bV0 val_main_v29 val_main_v28 val_main_v27
  exact Cert.LibRowForms.row_cast_eq_bcast _ _ _
private theorem b1_ref (b : FVec Ideal S3x64 .f32) : rowK (bV1 b) = val_main_v49 (F := Ideal) b := by
  unfold rowK bV1 val_main_v49 val_main_v48 val_main_v47
  exact Cert.LibRowForms.row_cast_eq_bcast _ _ _
private theorem b1'_ref (b : FVec Ideal S3x64 .f32) : rowK (bV1 b) = val_main_v58 (F := Ideal) b := by
  unfold rowK bV1 val_main_v58 val_main_v57 val_main_v56
  exact Cert.LibRowForms.row_cast_eq_bcast _ _ _
private theorem b2_ref (b : FVec Ideal S3x64 .f32) : rowK (bV2 b) = val_main_v78 (F := Ideal) b := by
  unfold rowK bV2 val_main_v78 val_main_v77 val_main_v76
  exact Cert.LibRowForms.row_cast_eq_bcast _ _ _
private theorem b2'_ref (b : FVec Ideal S3x64 .f32) : rowK (bV2 b) = val_main_v87 (F := Ideal) b := by
  unfold rowK bV2 val_main_v87 val_main_v86 val_main_v85
  exact Cert.LibRowForms.row_cast_eq_bcast _ _ _

/-- The final bias row likewise. -/
private theorem bout_ref (b : FVec Ideal S32 .f32) : shapeCast S1x32 b shapeCasts_S32_S1x32 = val_main_v103 (F := Ideal) b := by
  unfold val_main_v103
  exact Cert.LibRowForms.row_cast_eq_bcast _ _ _

end Copies

/-- With the plain lookup, the kernel program's result is the reference's result stage. -/
theorem outPlain_eq_ref (x0 : FVec Ideal S50000x64 .f32) (x1 : IVec S2x800000 32) (x2 : IVec S50000 32) (x3 : FVec Ideal S3x64x64 .f32)
    (x4 : FVec Ideal S3x64 .f32) (x5 : FVec Ideal S3x64x64 .f32) (x6 : FVec Ideal S3x64 .f32) (x7 : FVec Ideal S64x32 .f32)
    (x8 : FVec Ideal S32 .f32) :
    outOf aggPlain x0 x1 x2 x3 x4 x5 x6 x7 x8 = Cert.ReferenceIdeal.Read.val_main_v105 (F := Ideal) x0 x1 x2 x3 x4 x5 x6 x7 x8 := by
  have H1 : h1Of aggPlain x0 x1 x3 x4 x5 x6 = Cert.ReferenceIdeal.Read.val_main_v32 (F := Ideal) x0 x1 x3 x4 x5 x6 := by
    have hA : aggPlain x0 x1 = Cert.ReferenceIdeal.Read.val_main_v13 (F := Ideal) x0 x1 := by
      unfold Cert.ReferenceIdeal.Read.val_main_v13 Cert.ReferenceIdeal.Read.val_main_v10
      exact agg_ref0 x0 x1
    rw [ref_layer0]
    unfold h1Of
    rw [hA, w0_ref x3, b0_ref x4, w0'_ref x5, b0'_ref x6]
  have H2 : h2Of aggPlain x0 x1 x3 x4 x5 x6 = Cert.ReferenceIdeal.Read.val_main_v61 (F := Ideal) x0 x1 x3 x4 x5 x6 := by
    have hA : aggPlain (Cert.ReferenceIdeal.Read.val_main_v32 (F := Ideal) x0 x1 x3 x4 x5 x6) x1
        = Cert.ReferenceIdeal.Read.val_main_v42 (F := Ideal) x0 x1 x3 x4 x5 x6 := by
      unfold Cert.ReferenceIdeal.Read.val_main_v42 Cert.ReferenceIdeal.Read.val_main_v39
      exact agg_ref1 _ x1
    rw [ref_layer1]
    unfold h2Of
    rw [H1, hA, w1_ref x3, b1_ref x4, w1'_ref x5, b1'_ref x6]
  have H3 : h3Of aggPlain x0 x1 x3 x4 x5 x6 = Cert.ReferenceIdeal.Read.val_main_v90 (F := Ideal) x0 x1 x3 x4 x5 x6 := by
    have hA : aggPlain (Cert.ReferenceIdeal.Read.val_main_v61 (F := Ideal) x0 x1 x3 x4 x5 x6) x1
        = Cert.ReferenceIdeal.Read.val_main_v71 (F := Ideal) x0 x1 x3 x4 x5 x6 := by
      unfold Cert.ReferenceIdeal.Read.val_main_v71 Cert.ReferenceIdeal.Read.val_main_v68
      exact agg_ref2 _ x1
    rw [ref_layer2]
    unfold h3Of
    rw [H2, hA, w2_ref x3, b2_ref x4, w2'_ref x5, b2'_ref x6]
  have hS : sumsK x2 (Cert.ReferenceIdeal.Read.val_main_v90 (F := Ideal) x0 x1 x3 x4 x5 x6)
      = Cert.ReferenceIdeal.Read.val_main_v93 (F := Ideal) x0 x1 x2 x3 x4 x5 x6 := by
    unfold Cert.ReferenceIdeal.Read.val_main_v93
    exact sums_ref x2 _
  rw [ref_out]
  unfold outOf
  rw [H3, hS, cnts_ref x2, bout_ref x8]

/-- In range, the filled lookup gives the same result as the plain one. -/
theorem outFill_eq_outPlain (x0 : FVec Ideal S50000x64 .f32) (x1 : IVec S2x800000 32) (x2 : IVec S50000 32) (x3 : FVec Ideal S3x64x64 .f32)
    (x4 : FVec Ideal S3x64 .f32) (x5 : FVec Ideal S3x64x64 .f32) (x6 : FVec Ideal S3x64 .f32) (x7 : FVec Ideal S64x32 .f32)
    (x8 : FVec Ideal S32 .f32) (hs : InRange (srcOf x1)) :
    outOf aggFill x0 x1 x2 x3 x4 x5 x6 x7 x8 = outOf aggPlain x0 x1 x2 x3 x4 x5 x6 x7 x8 := by
  unfold outOf h3Of h2Of h1Of
  simp only [aggFill_eq_aggPlain x1 hs]

/-- In range, the kernel program's result is the reference's result stage. -/
theorem out_eq_ref (x0 : FVec Ideal S50000x64 .f32) (x1 : IVec S2x800000 32) (x2 : IVec S50000 32) (x3 : FVec Ideal S3x64x64 .f32)
    (x4 : FVec Ideal S3x64 .f32) (x5 : FVec Ideal S3x64x64 .f32) (x6 : FVec Ideal S3x64 .f32) (x7 : FVec Ideal S64x32 .f32)
    (x8 : FVec Ideal S32 .f32) (hs : InRange (srcOf x1)) :
    outOf aggFill x0 x1 x2 x3 x4 x5 x6 x7 x8 = Cert.ReferenceIdeal.Read.val_main_v105 (F := Ideal) x0 x1 x2 x3 x4 x5 x6 x7 x8 :=
  (outFill_eq_outPlain x0 x1 x2 x3 x4 x5 x6 x7 x8 hs).trans (outPlain_eq_ref x0 x1 x2 x3 x4 x5 x6 x7 x8)

end Cert.Gin

end
-- ==== Proof.lean ====
/-
  A three-layer graph network: a Pallas kernel program against its jnp reference, over the extended reals.

  Both programs pass 50000 node rows of 64 features through three layers. In a layer every node's new row is
  `relu (relu ((agg + h) · W₁ + b₁) · W₂ + b₂)`, where `h` is its current row and `agg` the sum of the current rows of
  the source nodes of the edges that point at it; then the rows are summed per graph (128 graphs), divided by the
  larger of the graph's node count and one, and mapped linearly to 32 outputs. The kernel program runs the perceptron
  of each layer in a kernel over ten blocks of 5000 nodes and the readout in a one-block kernel; the sums over edges
  and over graphs are plain array operations in both programs.

  The two programs differ in one place. The reference looks a source row up as `h[src]`; the kernel program uses a
  lookup that replaces the row by a fill word when the index, after an index below zero has been moved up by 50000,
  is outside `0 … 49999`. The statement's precondition says that every source index lies in `-50000 … 49999`, the
  indices that address one of the 50000 rows counted from either end; then no row is filled and the two lookups are
  one gather (TakeInRange.lean). Everything else is the same operation on both sides, so no law of arithmetic beyond
  reading a matrix product as a sum is used, and the finiteness of the float inputs is not needed.

  The pieces: Spec.lean states a node's perceptron and a graph's readout; MlpBody.lean reads the kernel bodies' stored
  values at an entry; Region0–3.lean turn each launch into a function of the arrays it finds; KernelStretch.lean,
  KernelKeep.lean and KernelChain.lean read the result buffer of the kernel program's run (ValueRun.lean) back to the
  arguments; RefLayers.lean reads the reference's stages; Bridge.lean joins the two.
-/
import proofs.«413928_j6339371728976_1_alg».proof.Defs
import proofs.«413928_j6339371728976_1_alg».proof.Proof.Gen.Kernel
import proofs.«413928_j6339371728976_1_alg».proof.Proof.Gen.Kernel.Skeleton
import proofs.«413928_j6339371728976_1_alg».proof.Proof.Gen.Kernel.Launch
import proofs.«413928_j6339371728976_1_alg».proof.Proof.Gen.Kernel.Points
import proofs.«413928_j6339371728976_1_alg».proof.Proof.Gen.Kernel.Frame
import proofs.«413928_j6339371728976_1_alg».proof.Proof.Gen.KernelIdeal
import proofs.«413928_j6339371728976_1_alg».proof.Proof.Gen.KernelIdeal.Skeleton
import proofs.«413928_j6339371728976_1_alg».proof.Proof.Gen.KernelIdeal.Launch
import proofs.«413928_j6339371728976_1_alg».proof.Proof.Gen.KernelIdeal.Points
import proofs.«413928_j6339371728976_1_alg».proof.Proof.Gen.KernelIdeal.Frame
import proofs.«413928_j6339371728976_1_alg».proof.Proof.Gen.ReferenceIdeal
import proofs.«413928_j6339371728976_1_alg».proof.Proof.Gen.ReferenceIdeal.Run
import proofs.«413928_j6339371728976_1_alg».proof.Proof.Gen.ReferenceIdeal.Read
import proofs.«413928_j6339371728976_1_alg».proof.Proof.Gen.Pre_finite_inputs
import proofs.«413928_j6339371728976_1_alg».proof.Proof.ValueRun
import proofs.«413928_j6339371728976_1_alg».proof.Proof.KernelChain
import proofs.«413928_j6339371728976_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: its generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments unchanged: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same 128 × 32 result: the kernel program's
    result buffer is `outOf aggFill` of the arguments, the reference's is its last stage, and under the precondition's
    range of the source indices the two are one function. -/
theorem algebraic : Cert.algebraic_KernelIdeal_ReferenceIdeal := by
  intro m ρ m' ρ' hpre hagree
  refine ⟨fun c => Cert.Gin.outOf Cert.Gin.aggFill (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.Gin.Chain.result m ρ c), (h c).2⟩)
      (Cert.Gin.KernelRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v105_eq, e0, e1, e2, e3, e4, e5, e6, e7, e8]
    exact (Cert.Gin.out_eq_ref _ _ _ _ _ _ _ _ _ (Cert.Gin.src_inRange m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
